-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v36_0)) (v2 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v36_0) = v1 c
          ∧ r.2.mem ((c.tc : Thread Cert.KernelIdeal.nD Cert.KernelIdeal.τ).loc Cert.KernelIdeal.main_v36_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S256x64 : Shape := ⟨2, ![256, 64]⟩
abbrev S1600000 : Shape := ⟨1, ![1600000]⟩
abbrev S1000000 : Shape := ⟨1, ![1000000]⟩
abbrev S500000x64 : Shape := ⟨2, ![500000, 64]⟩
abbrev S100000x64 : Shape := ⟨2, ![100000, 64]⟩
abbrev S2x1600000 : Shape := ⟨2, ![2, 1600000]⟩
abbrev S2x500000 : Shape := ⟨2, ![2, 500000]⟩
abbrev S2x1000000 : Shape := ⟨2, ![2, 1000000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x64 : S_.BroadcastsInDim S256x64 (![] : Fin 0 → Fin S256x64.rank)
  reducesTo_S256x64_S_d0_1 : S256x64.ReducesTo [0, 1] S_
  bcast_S_S1600000 : S_.BroadcastsInDim S1600000 (![] : Fin 0 → Fin S1600000.rank)
  reducesTo_S1600000_S_d0 : S1600000.ReducesTo [0] S_
  bcast_S_S1000000 : S_.BroadcastsInDim S1000000 (![] : Fin 0 → Fin S1000000.rank)
  reducesTo_S1000000_S_d0 : S1000000.ReducesTo [0] S_
  bcast_S_S500000x64 : S_.BroadcastsInDim S500000x64 (![] : Fin 0 → Fin S500000x64.rank)
  reducesTo_S500000x64_S_d0_1 : S500000x64.ReducesTo [0, 1] S_
  bcast_S_S100000x64 : S_.BroadcastsInDim S100000x64 (![] : Fin 0 → Fin S100000x64.rank)
  reducesTo_S100000x64_S_d0_1 : S100000x64.ReducesTo [0, 1] S_

variable [Facts]

def fn_part2 {F : FTy → Type} [FloatOps F] (main_arg7 : FVec F S500000x64 .f32) (main_arg8 : FVec F S100000x64 .f32) (main_v33 : IVec S_ 1) : IVec S_ 1 :=
  let main_v34 : FVec F S500000x64 .f32 := Host.absf main_arg7
  let main_cst_12 : FVec F S_ .f32 := constant S_ .f32 0x7F800000#32
  let main_v35 : FVec F S500000x64 .f32 := broadcastInDim S500000x64 ![] bcast_S_S500000x64 main_cst_12
  let main_v36 : IVec S500000x64 1 := cmpf .olt main_v34 main_v35
  let main_c_13 : IVec S_ 1 := constantI S_ 1 1#1
  let main_v37 : IVec S_ 1 := (fun x v => Host.reduce IntOp.andi x v reducesTo_S500000x64_S_d0_1 h_S_) main_v36 main_c_13
  let main_v38 : IVec S_ 1 := andi main_v33 main_v37
  let main_v39 : FVec F S100000x64 .f32 := Host.absf main_arg8
  let main_cst_14 : FVec F S_ .f32 := constant S_ .f32 0x7F800000#32
  let main_v40 : FVec F S100000x64 .f32 := broadcastInDim S100000x64 ![] bcast_S_S100000x64 main_cst_14
  let main_v41 : IVec S100000x64 1 := cmpf .olt main_v39 main_v40
  let main_c_15 : IVec S_ 1 := constantI S_ 1 1#1
  let main_v42 : IVec S_ 1 := (fun x v => Host.reduce IntOp.andi x v reducesTo_S100000x64_S_d0_1 h_S_) main_v41 main_c_15
  let main_v43 : IVec S_ 1 := andi main_v38 main_v42
  main_v43

def fn_part1 {F : FTy → Type} [FloatOps F] (main_arg4 : FVec F S1600000 .f32) (main_arg5 : FVec F S1000000 .f32) (main_arg6 : FVec F S500000x64 .f32) (main_arg7 : FVec F S500000x64 .f32) (main_arg8 : FVec F S100000x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S1600000 .f32 := Host.absf main_arg4
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_v29 : FVec F S500000x64 .f32 := Host.absf main_arg6
  let main_cst_10 : FVec F S_ .f32 := constant S_ .f32 0x7F800000#32
  let main_v30 : FVec F S500000x64 .f32 := broadcastInDim S500000x64 ![] bcast_S_S500000x64 main_cst_10
  let main_v31 : IVec S500000x64 1 := cmpf .olt main_v29 main_v30
  let main_c_11 : IVec S_ 1 := constantI S_ 1 1#1
  let main_v32 : IVec S_ 1 := (fun x v => Host.reduce IntOp.andi x v reducesTo_S500000x64_S_d0_1 h_S_) main_v31 main_c_11
  let main_v33 : IVec S_ 1 := andi main_v28 main_v32
  fn_part2 (F := F) main_arg7 main_arg8 main_v33

def fn {F : FTy → Type} [FloatOps F] (main_arg0 : FVec F S100000x256 .f32) (main_arg1 : FVec F S256x128 .f32) (main_arg2 : FVec F S256x64 .f32) (main_arg3 : FVec F S256x64 .f32) (main_arg4 : FVec F S1600000 .f32) (main_arg5 : FVec F S1000000 .f32) (main_arg6 : FVec F S500000x64 .f32) (main_arg7 : FVec F S500000x64 .f32) (main_arg8 : FVec F S100000x64 .f32) (main_arg9 : IVec S2x1600000 32) (main_arg10 : IVec S2x500000 32) (main_arg11 : IVec S2x1000000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_arg7 main_arg8 main_v13 main_v16
-- ==== Kernel.lean ====
abbrev S100000x256 : Shape := ⟨2, ![100000, 256]⟩
abbrev S256x128 : Shape := ⟨2, ![256, 128]⟩
abbrev S256x64 : Shape := ⟨2, ![256, 64]⟩
abbrev S1600000 : Shape := ⟨1, ![1600000]⟩
abbrev S1000000 : Shape := ⟨1, ![1000000]⟩
abbrev S500000x64 : Shape := ⟨2, ![500000, 64]⟩
abbrev S100000x64 : Shape := ⟨2, ![100000, 64]⟩
abbrev S2x1600000 : Shape := ⟨2, ![2, 1600000]⟩
abbrev S2x500000 : Shape := ⟨2, ![2, 500000]⟩
abbrev S2x1000000 : Shape := ⟨2, ![2, 1000000]⟩
abbrev S100000x128 : Shape := ⟨2, ![100000, 128]⟩
abbrev S2000x256 : Shape := ⟨2, ![2000, 256]⟩
abbrev S2000x128 : Shape := ⟨2, ![2000, 128]⟩
abbrev S1600000x1 : Shape := ⟨2, ![1600000, 1]⟩
abbrev S1x1600000 : Shape := ⟨2, ![1, 1600000]⟩
abbrev S_ : Shape := ⟨0, ![]⟩
abbrev S1600000x128 : Shape := ⟨2, ![1600000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S2000x64 : Shape := ⟨2, ![2000, 64]⟩
abbrev S1x1000000 : Shape := ⟨2, ![1, 1000000]⟩
abbrev S1000000x1 : Shape := ⟨2, ![1000000, 1]⟩
abbrev S1000000x128 : Shape := ⟨2, ![1000000, 128]⟩
abbrev S1000000x64 : Shape := ⟨2, ![1000000, 64]⟩
abbrev S2000x1 : Shape := ⟨2, ![2000, 1]⟩

abbrev nBuf : Space → Nat
  | .hbm => 95
  | .vmem => 39
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S256x64, .f32⟩
  | .hbm, ⟨3, _⟩ => ⟨S256x64, .f32⟩
  | .hbm, ⟨4, _⟩ => ⟨S1600000, .f32⟩
  | .hbm, ⟨5, _⟩ => ⟨S1000000, .f32⟩
  | .hbm, ⟨6, _⟩ => ⟨S500000x64, .f32⟩
  | .hbm, ⟨7, _⟩ => ⟨S500000x64, .f32⟩
  | .hbm, ⟨8, _⟩ => ⟨S100000x64, .f32⟩
  | .hbm, ⟨9, _⟩ => ⟨S2x1600000, .i32⟩
  | .hbm, ⟨10, _⟩ => ⟨S2x500000, .i32⟩
  | .hbm, ⟨11, _⟩ => ⟨S2x1000000, .i32⟩
  | .hbm, ⟨12, _⟩ => ⟨S100000x128, .f32⟩
  | .hbm, ⟨13, _⟩ => ⟨S1600000x1, .f32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x128, .f32⟩
  | .hbm, ⟨26, _⟩ => ⟨S1600000x128, .f32⟩
  | .hbm, ⟨27, _⟩ => ⟨S1x1600000, .i32⟩
  | .hbm, ⟨28, _⟩ => ⟨S1600000, .i32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1x500000, .i32⟩
  | .hbm, ⟨34, _⟩ => ⟨S500000, .i32⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x128, .f32⟩
  | .hbm, ⟨44, _⟩ => ⟨S1x500000, .i32⟩
  | .hbm, ⟨45, _⟩ => ⟨S500000, .i32⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x128, .f32⟩
  | .hbm, ⟨55, _⟩ => ⟨S500000x64, .f32⟩
  | .hbm, ⟨56, _⟩ => ⟨S500000x64, .f32⟩
  | .hbm, ⟨57, _⟩ => ⟨S1x1000000, .i32⟩
  | .hbm, ⟨58, _⟩ => ⟨S1000000, .i32⟩
  | .hbm, ⟨59, _⟩ => ⟨S_, .i32⟩
  | .hbm, ⟨60, _⟩ => ⟨S1000000, .i32⟩
  | .hbm, ⟨61, _⟩ => ⟨S1000000, .i1⟩
  | .hbm, ⟨62, _⟩ => ⟨S_, .i32⟩
  | .hbm, ⟨63, _⟩ => ⟨S1000000, .i32⟩
  | .hbm, ⟨64, _⟩ => ⟨S1000000, .i32⟩
  | .hbm, ⟨65, _⟩ => ⟨S1000000, .i32⟩
  | .hbm, ⟨66, _⟩ => ⟨S1000000x1, .i32⟩
  | .hbm, ⟨67, _⟩ => ⟨S1000000x128, .f32⟩
  | .hbm, ⟨68, _⟩ => ⟨S1x1000000, .i32⟩
  | .hbm, ⟨69, _⟩ => ⟨S1000000, .i32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1000000x128, .f32⟩
  | .hbm, ⟨79, _⟩ => ⟨S1000000x1, .f32⟩
  | .hbm, ⟨80, _⟩ => ⟨S1000000x64, .f32⟩
  | .hbm, ⟨81, _⟩ => ⟨S1000000x64, .f32⟩
  | .hbm, ⟨82, _⟩ => ⟨S1x1000000, .i32⟩
  | .hbm, ⟨83, _⟩ => ⟨S1000000, .i32⟩
  | .hbm, ⟨84, _⟩ => ⟨S_, .f32⟩
  | .hbm, ⟨85, _⟩ => ⟨S100000x64, .f32⟩
  | .hbm, ⟨86, _⟩ => ⟨S1000000x1, .i32⟩
  | .hbm, ⟨87, _⟩ => ⟨S100000x64, .f32⟩
  | .hbm, ⟨88, _⟩ => ⟨S1x1000000, .i32⟩
  | .hbm, ⟨89, _⟩ => ⟨S1000000, .i32⟩
  | .hbm, ⟨90, _⟩ => ⟨S_, .f32⟩
  | .hbm, ⟨91, _⟩ => ⟨S100000x64, .f32⟩
  | .hbm, ⟨92, _⟩ => ⟨S1000000x1, .i32⟩
  | .hbm, ⟨93, _⟩ => ⟨S100000x64, .f32⟩
  | .hbm, ⟨94, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S256x64, .f32⟩
  | .local _ .vmem, ⟨10, _⟩ => ⟨S256x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S256x64, .f32⟩
  | .local _ .vmem, ⟨24, _⟩ => ⟨S256x64, .f32⟩
  | .local _ .vmem, ⟨25, _⟩ => ⟨S2000x1, .f32⟩
  | .local _ .vmem, ⟨26, _⟩ => ⟨S2000x1, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56_0 : Ref sig .tc := ⟨.hbm, 80, rfl⟩
abbrev main_v56_1 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1600000_S1600000x1_0 : S1600000.BroadcastsInDim S1600000x1 (![0] : Fin 1 → Fin S1600000x1.rank)
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  slices_S2x1600000_S1x1600000_0_0 : S2x1600000.Slices ![0, 0] S1x1600000
  bcast_S_S100000x128 : S_.BroadcastsInDim S100000x128 (![] : Fin 0 → Fin S100000x128.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  shapeCasts_S2000x128_S2000x128 : S2000x128.ShapeCasts S2000x128
  concatenates_S2000x128_S2000x128_S2000x256_d1 : Shape.Concatenates [S2000x128, S2000x128] S2000x256 1
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bcast_S_S100000x64 : S_.BroadcastsInDim S100000x64 (![] : Fin 0 → Fin S100000x64.rank)
  shapeCasts_S2000x64_S2000x64 : S2000x64.ShapeCasts S2000x64
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S500000x1_S500000x128_1_0_n_n_0_1_1128_wf : GatherDims.WF S100000x128 S500000x1 S500000x128 [1] [0] [] [0] [] 1 ![1, 128]
  dot_S2000x256_S256x64_S2000x64_1_0_0_1_n_n_wf : DotDims.WF S2000x256 S256x64 S2000x64 [1] [0] [0] [1] [] []
  gather_S100000x128_S1000000x1_S1000000x128_1_0_n_n_0_1_1128_wf : GatherDims.WF S100000x128 S1000000x1 S1000000x128 [1] [0] [] [0] [] 1 ![1, 128]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S500000x128.size a
  hwx1_0 : ∀ i : grid1.Coords, EltTy.bits .f32 = 32 ∨ (Rect.block (s := S500000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S500000x128.size a
  hwx1_1 : ∀ i : grid1.Coords, EltTy.bits .f32 = 32 ∨ (Rect.block (s := S500000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S500000x64.size a
  hwx1_4 : ∀ i : grid1.Coords, EltTy.bits .f32 = 32 ∨ (Rect.block (s := S500000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S500000x64.size a
  hwx1_5 : ∀ i : grid1.Coords, EltTy.bits .f32 = 32 ∨ (Rect.block (s := S500000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S500000x64.size a
  hwx1_6 : ∀ i : grid1.Coords, EltTy.bits .f32 = 32 ∨ (Rect.block (s := S500000x64) S2000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S500000x64.size a
  hwx1_7 : ∀ i : grid1.Coords, EltTy.bits .f32 = 32 ∨ (Rect.block (s := S500000x64) S2000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S1000000x128.size a
  hwx2_0 : ∀ i : grid2.Coords, EltTy.bits .f32 = 32 ∨ (Rect.block (s := S1000000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S1000000x128.size a
  hwx2_1 : ∀ i : grid2.Coords, EltTy.bits .f32 = 32 ∨ (Rect.block (s := S1000000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S256x64.size a
  hwx2_3 : ∀ i : grid2.Coords, EltTy.bits .f32 = 32 ∨ (Rect.block (s := S256x64) S256x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S1000000x1.size a
  hwx2_4 : ∀ i : grid2.Coords, EltTy.bits .f32 = 32 ∨ (Rect.block (s := S1000000x1) S2000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S1000000x64.size a
  hwx2_5 : ∀ i : grid2.Coords, EltTy.bits .f32 = 32 ∨ (Rect.block (s := S1000000x64) S2000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S1000000x64.size a
  hwx2_6 : ∀ i : grid2.Coords, EltTy.bits .f32 = 32 ∨ (Rect.block (s := S1000000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S2000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S2000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v36_0) S2000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v36_1) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S256x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v56_0) S2000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v56_1) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S256x64 : Shape := ⟨2, ![256, 64]⟩
abbrev S1600000 : Shape := ⟨1, ![1600000]⟩
abbrev S1000000 : Shape := ⟨1, ![1000000]⟩
abbrev S500000x64 : Shape := ⟨2, ![500000, 64]⟩
abbrev S100000x64 : Shape := ⟨2, ![100000, 64]⟩
abbrev S2x1600000 : Shape := ⟨2, ![2, 1600000]⟩
abbrev S2x500000 : Shape := ⟨2, ![2, 500000]⟩
abbrev S2x1000000 : Shape := ⟨2, ![2, 1000000]⟩
abbrev S100000x128 : Shape := ⟨2, ![100000, 128]⟩
abbrev S1600000x1 : Shape := ⟨2, ![1600000, 1]⟩
abbrev S1x1600000 : Shape := ⟨2, ![1, 1600000]⟩
abbrev S_ : Shape := ⟨0, ![]⟩
abbrev S1600000x128 : Shape := ⟨2, ![1600000, 128]⟩
abbrev S128x64 : Shape := ⟨2, ![128, 64]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S1x1000000 : Shape := ⟨2, ![1, 1000000]⟩
abbrev S1000000x1 : Shape := ⟨2, ![1000000, 1]⟩
abbrev S1000000x128 : Shape := ⟨2, ![1000000, 128]⟩
abbrev S1000000x64 : Shape := ⟨2, ![1000000, 64]⟩

abbrev nBuf : Space → Nat
  | .hbm => 132
  | .vmem => 0
  | .smem => 0
  | _ => 0

abbrev hbmTy0_0 (i : Nat) : BufTy := match i % 128 with
  | 0 => ⟨S100000x256, .f32⟩
  | 1 => ⟨S256x128, .f32⟩
  | 2 => ⟨S256x64, .f32⟩
  | 3 => ⟨S256x64, .f32⟩
  | 4 => ⟨S1600000, .f32⟩
  | 5 => ⟨S1000000, .f32⟩
  | 6 => ⟨S500000x64, .f32⟩
  | 7 => ⟨S500000x64, .f32⟩
  | 8 => ⟨S100000x64, .f32⟩
  | 9 => ⟨S2x1600000, .i32⟩
  | 10 => ⟨S2x500000, .i32⟩
  | 11 => ⟨S2x1000000, .i32⟩
  | 12 => ⟨S100000x128, .f32⟩
  | 13 => ⟨S1600000x1, .f32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S1600000x128, .f32⟩
  | 26 => ⟨S1600000x128, .f32⟩
  | 27 => ⟨S1x1600000, .i32⟩
  | 28 => ⟨S1600000, .i32⟩
  | 29 => ⟨S_, .f32⟩
  | 30 => ⟨S100000x128, .f32⟩
  | 31 => ⟨S1600000x1, .i32⟩
  | 32 => ⟨S100000x128, .f32⟩
  | 33 => ⟨S128x64, .f32⟩
  | 34 => ⟨S128x64, .f32⟩
  | 35 => ⟨S128x64, .f32⟩
  | 36 => ⟨S128x64, .f32⟩
  | 37 => ⟨S1x500000, .i32⟩
  | 38 => ⟨S500000, .i32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x128, .f32⟩
  | 48 => ⟨S1x500000, .i32⟩
  | 49 => ⟨S500000, .i32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x128, .f32⟩
  | 59 => ⟨S500000x64, .f32⟩
  | 60 => ⟨S500000x64, .f32⟩
  | 61 => ⟨S500000x64, .f32⟩
  | 62 => ⟨S500000x64, .f32⟩
  | 63 => ⟨S500000x64, .f32⟩
  | 64 => ⟨S500000x64, .f32⟩
  | 65 => ⟨S500000x64, .f32⟩
  | 66 => ⟨S500000x64, .f32⟩
  | 67 => ⟨S500000x64, .f32⟩
  | 68 => ⟨S500000x64, .f32⟩
  | 69 => ⟨S500000x64, .f32⟩
  | 70 => ⟨S500000x64, .f32⟩
  | 71 => ⟨S500000x64, .f32⟩
  | 72 => ⟨S500000x64, .f32⟩
  | 73 => ⟨S500000x64, .f32⟩
  | 74 => ⟨S500000x64, .f32⟩
  | 75 => ⟨S500000x64, .f32⟩
  | 76 => ⟨S500000x64, .f32⟩
  | 77 => ⟨S1x1000000, .i32⟩
  | 78 => ⟨S1000000, .i32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x128, .f32⟩
  | 88 => ⟨S1x1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x128, .f32⟩
  | 99 => ⟨S1000000x64, .f32⟩
  | 100 => ⟨S1000000x64, .f32⟩
  | 101 => ⟨S1000000x64, .f32⟩
  | 102 => ⟨S1000000x64, .f32⟩
  | 103 => ⟨S1000000x64, .f32⟩
  | 104 => ⟨S1000000x64, .f32⟩
  | 105 => ⟨S1000000x1, .f32⟩
  | 106 => ⟨S1000000x64, .f32⟩
  | 107 => ⟨S1000000x64, .f32⟩
  | 108 => ⟨S1x1000000, .i32⟩
  | 109 => ⟨S1000000, .i32⟩
  | 110 => ⟨S_, .f32⟩
  | 111 => ⟨S100000x64, .f32⟩
  | 112 => ⟨S1000000x1, .i32⟩
  | 113 => ⟨S100000x64, .f32⟩
  | 114 => ⟨S1000000, .f32⟩
  | 115 => ⟨S1000000x1, .f32⟩
  | 116 => ⟨S1000000x64, .f32⟩
  | 117 => ⟨S1000000x64, .f32⟩
  | 118 => ⟨S1000000x64, .f32⟩
  | 119 => ⟨S1x1000000, .i32⟩
  | 120 => ⟨S1000000, .i32⟩
  | 121 => ⟨S_, .f32⟩
  | 122 => ⟨S100000x64, .f32⟩
  | 123 => ⟨S1000000x1, .i32⟩
  | 124 => ⟨S100000x64, .f32⟩
  | 125 => ⟨S100000x64, .f32⟩
  | 126 => ⟨S_, .f32⟩
  | 127 => ⟨S100000x64, .f32⟩
  | _ => ⟨S100000x256, .f32⟩

abbrev hbmTy0_1 (i : Nat) : BufTy := match i % 128 with
  | 0 => ⟨S100000x64, .f32⟩
  | 1 => ⟨S100000x64, .f32⟩
  | 2 => ⟨S100000x64, .f32⟩
  | 3 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_3 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_5 : Ref sig .tc := ⟨.hbm, 79, rfl⟩
abbrev main_v60 : Ref sig .tc := ⟨.hbm, 80, rfl⟩
abbrev main_v61 : Ref sig .tc := ⟨.hbm, 81, rfl⟩
abbrev main_c_6 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_7 : Ref sig .tc := ⟨.hbm, 90, rfl⟩
abbrev main_v69 : Ref sig .tc := ⟨.hbm, 91, rfl⟩
abbrev main_v70 : Ref sig .tc := ⟨.hbm, 92, rfl⟩
abbrev main_c_8 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_9 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_10 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_11 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  slices_S2x1600000_S1x1600000_0_0 : S2x1600000.Slices ![0, 0] S1x1600000
  bcast_S_S100000x128 : S_.BroadcastsInDim S100000x128 (![] : Fin 0 → Fin S100000x128.rank)
  slices_S256x64_S128x64_0_0 : S256x64.Slices ![0, 0] S128x64
  slices_S256x64_S128x64_128_0 : S256x64.Slices ![128, 0] S128x64
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S500000x1_S500000x128_1_0_n_n_0_1_1128_wf : GatherDims.WF S100000x128 S500000x1 S500000x128 [1] [0] [] [0] [] 1 ![1, 128]
  dot_S500000x128_S128x64_S500000x64_1_0_0_1_n_n_wf : DotDims.WF S500000x128 S128x64 S500000x64 [1] [0] [0] [1] [] []
  gather_S100000x128_S1000000x1_S1000000x128_1_0_n_n_0_1_1128_wf : GatherDims.WF S100000x128 S1000000x1 S1000000x128 [1] [0] [] [0] [] 1 ![1, 128]
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.Spec.lean ====
/-
  What the two programs compute, index by index, on the extended reals.

  `xw`      : the dense projection, `(X · W)[r, c] = ∑ k, X[r, k] · W[k, c]`.
  `projAt`  : a pair of 128-wide rows `[a | b]` against a 256-row weight, written as the reference writes it, the
               top half of the weight against `a` plus the bottom half against `b`.
  `edge`    : a directed edge's sample, `z · exp (logstd) + miu`, both projections of the pair of hidden rows.
  `wmiu`, `wvar` : a bidirectional edge's weighted mean `v · miu` and weighted variance `v² · exp (logstd)`, the
               edge value `v` read from a one-column array.
  `comb`    : a node's sample `z · √var + miu`.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Arr2 (a b : ℕ) : Type := (⟨2, ![a, b]⟩ : Shape).Idx → EReal

/-- One entry of the dense projection. -/
def xwAt (X : Arr2 100000 256) (W : Arr2 256 128) (r : Fin 100000) (c : Fin 128) : EReal :=
  ∑ k : Fin 256, X (ix2 r k) * W (ix2 k c)

/-- The dense projection `X · W`. -/
def xw (X : Arr2 100000 256) (W : Arr2 256 128) : Arr2 100000 128 := fun i => xwAt X W (i 0) (i 1)

/-- Row `r` of `[a | b]` against column `c` of a 256-row weight: the top 128 rows of the weight meet `a`, the
    bottom 128 meet `b`. -/
def projAt {n : ℕ} (a b : Arr2 n 128) (W : Arr2 256 64) (r : Fin n) (c : Fin 64) : EReal :=
  (∑ k : Fin 128, a (ix2 r k) * W (ix2 (⟨k.val, by omega⟩ : Fin 256) c))
    + ∑ k : Fin 128, b (ix2 r k) * W (ix2 (⟨128 + k.val, by omega⟩ : Fin 256) c)

/-- One entry of a directed edge's sample. -/
def edgeAt {n : ℕ} (a b : Arr2 n 128) (Wm Ws : Arr2 256 64) (z : Arr2 n 64) (r : Fin n) (c : Fin 64) : EReal :=
  z (ix2 r c) * Ideal.exp (projAt a b Ws r c) + projAt a b Wm r c

/-- A directed edge set's samples: `z · exp ([a | b] · Ws) + [a | b] · Wm`. -/
def edge {n : ℕ} (a b : Arr2 n 128) (Wm Ws : Arr2 256 64) (z : Arr2 n 64) : Arr2 n 64 :=
  fun i => edgeAt a b Wm Ws z (i 0) (i 1)

/-- One entry of the weighted mean term. -/
def wmiuAt {n : ℕ} (a b : Arr2 n 128) (Wm : Arr2 256 64) (v : Arr2 n 1) (r : Fin n) (c : Fin 64) : EReal :=
  v (ix2 r 0) * projAt a b Wm r c

/-- The weighted mean terms `v · ([a | b] · Wm)`. -/
def wmiu {n : ℕ} (a b : Arr2 n 128) (Wm : Arr2 256 64) (v : Arr2 n 1) : Arr2 n 64 :=
  fun i => wmiuAt a b Wm v (i 0) (i 1)

/-- One entry of the weighted variance term. -/
def wvarAt {n : ℕ} (a b : Arr2 n 128) (Ws : Arr2 256 64) (v : Arr2 n 1) (r : Fin n) (c : Fin 64) : EReal :=
  (v (ix2 r 0) * v (ix2 r 0)) * Ideal.exp (projAt a b Ws r c)

/-- The weighted variance terms `v² · exp ([a | b] · Ws)`. -/
def wvar {n : ℕ} (a b : Arr2 n 128) (Ws : Arr2 256 64) (v : Arr2 n 1) : Arr2 n 64 :=
  fun i => wvarAt a b Ws v (i 0) (i 1)

/-- A node's sample `z · √var + miu`. -/
def comb (miu var z : Arr2 100000 64) : Arr2 100000 64 := fun i => z i * Ideal.sqrt (var i) + miu i

end Cert.Spec

end
-- ==== Proof.Laws.lean ====
/-
  Laws on the extended reals that join the two programs.

  * The square root against the exponential of half the logarithm: on `0 ≤ v ≤ ⊤` both are `√v` — at `0` the
    logarithm is `⊥`, half of `⊥` is `⊥` and its exponential `0 = √0`; at `⊤` both are `⊤`; on a positive real
    `exp (log v / 2) = v ^ (1/2)`. Below zero the two differ (`⊥` against `0`), so the law is stated for `0 ≤ v`.
  * A square times an exponential is never negative, whatever the extended reals, and so is a sum of such terms
    onto zero: the aggregated variance is in the law's range with nothing assumed of the inputs.
  * A sum over 256 terms is the sum of its first 128 and its last 128 terms.
-/
import Idealize.ShloMosaic.PureOps.Ideal
import Idealize.ShloMosaic.PureOps.Ideal.Laws
import Mathlib.Analysis.SpecialFunctions.Pow.Real
import Mathlib.Analysis.SpecialFunctions.Sqrt

noncomputable section

namespace Cert.Laws

open Idealize.ShloMosaic

/-- The pattern of `0.5` denotes the real one half. -/
theorem ofBits_half : Ideal.ofBits .f32 0x3F000000#32 = ((1 / 2 : ℝ) : EReal) := by
  simp [Ideal.ofBits, Ideal.ieee, -EReal.coe_mul]; norm_num

/-- `√v = exp (½ · log v)` for every extended real `0 ≤ v`, the infinity and zero included. -/
theorem sqrt_eq_exp_half_log (v : EReal) (hv : 0 ≤ v) :
    Ideal.sqrt v = Ideal.exp (Ideal.ofBits .f32 0x3F000000#32 * Ideal.log v) := by
  rw [ofBits_half]
  induction v using EReal.rec with
  | bot => exact absurd hv (by simp)
  | top =>
    show (⊤ : EReal) = Ideal.exp (((1 / 2 : ℝ) : EReal) * ⊤)
    rw [EReal.coe_mul_top_of_pos (by norm_num)]; rfl
  | coe r =>
    have hr : 0 ≤ r := by exact_mod_cast hv
    rcases hr.eq_or_lt with h0 | hpos
    · subst h0
      show (if (0 : ℝ) < 0 then (⊥ : EReal) else ((Real.sqrt 0 : ℝ) : EReal))
        = Ideal.exp (((1 / 2 : ℝ) : EReal) * (if (0 : ℝ) ≤ 0 then (⊥ : EReal) else ((Real.log 0 : ℝ) : EReal)))
      rw [if_neg (lt_irrefl _), if_pos le_rfl, EReal.coe_mul_bot_of_pos (by norm_num), Real.sqrt_zero]
      rfl
    · show (if r < 0 then (⊥ : EReal) else ((Real.sqrt r : ℝ) : EReal))
        = Ideal.exp (((1 / 2 : ℝ) : EReal) * (if r ≤ 0 then (⊥ : EReal) else ((Real.log r : ℝ) : EReal)))
      rw [if_neg (not_lt.2 hpos.le), if_neg (not_le.2 hpos), ← EReal.coe_mul]
      show ((Real.sqrt r : ℝ) : EReal) = ((Real.exp (1 / 2 * Real.log r) : ℝ) : EReal)
      rw [Real.sqrt_eq_rpow, Real.rpow_def_of_pos hpos, mul_comm]

/-- The exponential is never negative. -/
theorem exp_nonneg (x : EReal) : 0 ≤ Ideal.exp x := by
  induction x using EReal.rec with
  | bot => exact le_rfl
  | top => exact le_top
  | coe r =>
    show (0 : EReal) ≤ ((Real.exp r : ℝ) : EReal)
    exact_mod_cast (Real.exp_pos r).le

/-- A square is never negative on the extended reals. -/
theorem mul_self_nonneg (b : EReal) : 0 ≤ b * b := by
  induction b using EReal.rec with
  | bot => rw [EReal.bot_mul_bot]; exact le_top
  | top => rw [EReal.top_mul_top]; exact le_top
  | coe r => rw [← EReal.coe_mul]; exact_mod_cast _root_.mul_self_nonneg r

/-- One weighted variance term: a square times an exponential. -/
theorem sq_mul_exp_nonneg (b x : EReal) : 0 ≤ (b * b) * Ideal.exp x :=
  EReal.mul_nonneg (mul_self_nonneg b) (exp_nonneg x)

/-- Zero plus a sum of non-negative terms is non-negative. -/
theorem zero_add_sum_nonneg {ι : Type*} (s : Finset ι) (f : ι → EReal) (hf : ∀ j ∈ s, 0 ≤ f j) :
    0 ≤ (0 : EReal) + ∑ j ∈ s, f j := by
  rw [zero_add]; exact Finset.sum_nonneg hf

/-- A sum of 256 terms is its first 128 plus its last 128. -/
theorem sum_256_split {M : Type*} [AddCommMonoid M] (f : Fin 256 → M) :
    ∑ k : Fin 256, f k = ∑ k : Fin 128, f ⟨k.val, by omega⟩ + ∑ k : Fin 128, f ⟨128 + k.val, by omega⟩ := by
  exact Fin.sum_univ_add (a := 128) (b := 128) (fun i : Fin (128 + 128) => f i)

end Cert.Laws

end
-- ==== Proof.XwValue.lean ====
/-
  The first region: the dense projection, 50 row blocks of 2000 rows. Each point multiplies its block of `X` with the
  whole of `W`; the blocks tile the rows, so the array the region leaves is `X · W`.
-/
import proofs.«169134_j56556129354623_1_alg».proof.Proof.Gen.KernelIdeal.Frame
import proofs.«169134_j56556129354623_1_alg».proof.Proof.Spec
import proofs.«169134_j56556129354623_1_alg».proof.Proof.Laws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.XwValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an entry -/

/-- The left operand's row coordinate is the result's row coordinate. -/
theorem lhs_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the contracted index. -/
theorem lhs_col (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's row coordinate is the contracted index. -/
theorem rhs_row (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand's column coordinate is the result's column coordinate. -/
theorem rhs_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- One entry of the product a grid point computes: row `p` of its block of `X` against column `q` of `W`. The
    narrowing of the operands' float format does not change an ideal value, and the accumulator starts at zero. -/
theorem blockProduct_apply (x0 : Vec Ideal S2000x256 .f32) (x1 : Vec Ideal S256x128 .f32) (p : Fin 2000) (q : Fin 128) :
    k0_pay1 (F := Ideal) x0 x1 (ix2 p q) = ∑ k : Fin 256, x0 (ix2 p k) * x1 (ix2 k q) := by
  unfold k0_pay1
  refine (Ideal.matmul_constant_zero_apply dot_S2000x256_S256x128_S2000x128_1_0_0_1_n_n none _ _ (ix2 p q)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_row _ _).trans hk
    | ⟨1, _⟩ => exact rhs_col _ _)
  rw [truncf_apply, truncf_apply, el, er]

/-! ## From the blocks to the array -/

-- the buffer contents when the region is entered
variable (V : (c : Dev nD) → (b : Ref sig .tc) → Buf (Elt Ideal) ((c : Thread nD τ).loc b))

/-- The body's whole-block accesses start at the origin of their buffers. -/
theorem origin_eq : (![0, 0] : Fin 2 → Nat) = fun _ => 0 := funext fun a => by fin_cases a <;> rfl

/-- One entry of the dense projection, with the index's two coordinates named. -/
theorem xw_entry (X : Cert.Spec.Arr2 100000 256) (W : Cert.Spec.Arr2 256 128) (i : S100000x128.Idx) :
    Cert.Spec.xw X W i = ∑ k : Fin 256, X (ix2 (i 0) k) * W (ix2 k (i 1)) := rfl

/-- The windows' index maps over the 50 grid points: at point `t` the block of `X` and the output block are row block
    `t`, column block 0; the weight's block is the whole weight, block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `X · W`: rows `2000 t … 2000 t + 1999` of `X` against the whole of `W`. -/
theorem flushed_eq (c : Dev nD) (t : Fin cfg0.N) :
    (dat0 (F := Ideal) V c).flushed 2 t
      = ((cfg0.win 2).blk t).view.read (Elt Ideal) (Cert.Spec.xw (V c main_arg0) (V c main_arg1)) := by
  show (cfg0.win 2).cut (grid0.coords t) ((dat0 (F := Ideal) V c).after 2 t) = _
  rw [after0_2]
  unfold out0_2
  rw [View.canon_unit_zero origin_eq]
  simp only [View.ld_unit_zero (S := S2000x256) origin_eq, View.ld_unit_zero (S := S256x128) origin_eq]
  obtain ⟨e00, e01, e10, e11, e20, e21⟩ := index_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = Cert.Spec.xw (V c main_arg0) (V c main_arg1) (((cfg0.win 2).blk t).view.emb (ix2 p q))
  refine (blockProduct_apply (iblk0 V c 0 t) (iblk0 V c 1 t) p q).trans ?_
  refine Eq.trans ?_ (xw_entry (V c main_arg0) (V c main_arg1) _).symm
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  exact congrArg₂ (fun a b : EReal => a * b) (congrArg (V c main_arg0) h0) (congrArg (V c main_arg1) h1)

/-- An index of the array is in point `t`'s output block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The 50 output blocks tile the rows: row `r` is in the block of point `r / 2000`, and every point writes back. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 50 := Gen.N_0
  obtain ⟨t, ht⟩ : ∃ t : Fin cfg0.N, t.val = (i 0).val / 2000 :=
    ⟨⟨(i 0).val / 2000, by show (i 0).val / 2000 < grid0.N; omega⟩, rfl⟩
  obtain ⟨-, -, -, -, e20, e21⟩ := index_facts t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array the first region leaves is the dense projection of its two input arrays as the region finds them. -/
theorem final (c : Dev nD) :
    (dat0 (F := Ideal) V c).arrAt 2 cfg0.N = Cert.Spec.xw (V c main_arg0) (V c main_arg1) :=
  (dat0 (F := Ideal) V c).arrAt_eq_of_cover 2 (Cert.Spec.xw (V c main_arg0) (V c main_arg1))
    (fun t _ => flushed_eq V c t) covered

end Cert.KernelIdeal.XwValue

end
-- ==== Proof.ConcatProj.lean ====
/-
  One block's projection of a concatenated pair of row blocks: the matrix product of `[a | b]` (2000 rows, 128 + 128
  columns) with a 256-row weight, into a zero accumulator, read at an entry, is the top half of the weight against
  `a` plus the bottom half against `b`. The changes of float format are the identity on the extended reals.
-/
import proofs.«169134_j56556129354623_1_alg».proof.Proof.Gen.KernelIdeal.Frame
import proofs.«169134_j56556129354623_1_alg».proof.Proof.Spec
import proofs.«169134_j56556129354623_1_alg».proof.Proof.Laws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ConcatProj

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The operand indices of the block product

The product contracts axis 1 of the left operand with axis 0 of the right one; the other two axes are the result's. -/

/-- The left operand's row is the result's row. -/
theorem lhs_axis_0 (i : S2000x64.Idx) (k : dot_S2000x256_S256x64_S2000x64_1_0_0_1_n_n.contr.Idx) :
    (dot_S2000x256_S256x64_S2000x64_1_0_0_1_n_n.lhsIdx i k 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
/-- The left operand's column is the contracted coordinate. -/
theorem lhs_axis_1 (i : S2000x64.Idx) (k : dot_S2000x256_S256x64_S2000x64_1_0_0_1_n_n.contr.Idx) :
    (dot_S2000x256_S256x64_S2000x64_1_0_0_1_n_n.lhsIdx i k 1).val = (k ⟨0, by decide⟩).val :=
  dot_S2000x256_S256x64_S2000x64_1_0_0_1_n_n.lhsIdx_val_of_single rfl i k
/-- The right operand's row is the contracted coordinate. -/
theorem rhs_axis_0 (i : S2000x64.Idx) (k : dot_S2000x256_S256x64_S2000x64_1_0_0_1_n_n.contr.Idx) :
    (dot_S2000x256_S256x64_S2000x64_1_0_0_1_n_n.rhsIdx i k 0).val = (k ⟨0, by decide⟩).val :=
  dot_S2000x256_S256x64_S2000x64_1_0_0_1_n_n.rhsIdx_val_of_single rfl i k
/-- The right operand's column is the result's column. -/
theorem rhs_axis_1 (i : S2000x64.Idx) (k : dot_S2000x256_S256x64_S2000x64_1_0_0_1_n_n.contr.Idx) :
    (dot_S2000x256_S256x64_S2000x64_1_0_0_1_n_n.rhsIdx i k 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- The block product into a zero accumulator at the entry `(p, q)` is `∑ k < 256, x[p, k] · w[k, q]`. -/
theorem matmul_zero_apply (x : FVec Ideal S2000x256 .bf16) (w : FVec Ideal S256x64 .bf16) (p : Fin 2000) (q : Fin 64) :
    matmul (F := Ideal) dot_S2000x256_S256x64_S2000x64_1_0_0_1_n_n none x w (constant S2000x64 .f32 0x00000000#32) (ix2 p q)
      = ∑ k : Fin 256, x (ix2 p k) * w (ix2 k q) := by
  simp only [matmul]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p q) ((ValueIdx.contrEquiv1 dot_S2000x256_S256x64_S2000x64_1_0_0_1_n_n 256 rfl rfl).symm k) = ix2 p k := funext fun a => Fin.ext (by
    match a with
    | ⟨0, _⟩ => exact lhs_axis_0 _ _
    | ⟨1, _⟩ => exact (lhs_axis_1 _ _).trans hk)
  have er : dot_S2000x256_S256x64_S2000x64_1_0_0_1_n_n.rhsIdx (ix2 p q) ((ValueIdx.contrEquiv1 dot_S2000x256_S256x64_S2000x64_1_0_0_1_n_n 256 rfl rfl).symm k) = ix2 k q := funext fun a => Fin.ext (by
    match a with
    | ⟨0, _⟩ => exact (rhs_axis_0 _ _).trans hk
    | ⟨1, _⟩ => exact rhs_axis_1 _ _)
  rw [el, er]

/-! ## The concatenated pair at a column -/

/-- A column below 128 of `[x | y]` is that column of `x`. -/
theorem concat_left (x y : FVec Ideal S2000x128 .bf16) (p : Fin 2000) (k : Fin 128) :
    concatenate S2000x256 1 [⟨S2000x128, x⟩, ⟨S2000x128, y⟩] concatenates_S2000x128_S2000x128_S2000x256_d1
      (ix2 p (⟨k.val, by omega⟩ : Fin 256)) = x (ix2 p k) :=
  concatenate_pair_apply_left 1 x y concatenates_S2000x128_S2000x128_S2000x256_d1 _ rfl _ (fun b => by
    match b with
    | ⟨0, _⟩ => rfl
    | ⟨1, _⟩ => rfl)

/-- A column `128 + k` of `[x | y]` is column `k` of `y`. -/
theorem concat_right (x y : FVec Ideal S2000x128 .bf16) (p : Fin 2000) (k : Fin 128) :
    concatenate S2000x256 1 [⟨S2000x128, x⟩, ⟨S2000x128, y⟩] concatenates_S2000x128_S2000x128_S2000x256_d1
      (ix2 p (⟨128 + k.val, by omega⟩ : Fin 256)) = y (ix2 p k) :=
  concatenate_pair_apply_right 1 x y concatenates_S2000x128_S2000x128_S2000x256_d1 _ rfl rfl _
    (fun b hb => by
      match b with
      | ⟨0, _⟩ => rfl
      | ⟨1, _⟩ => exact absurd rfl hb)
    (by show k.val + 128 = 128 + k.val; omega)

/-- The entry `(p, q)` of `[a | b] · W` is `∑ k < 128, a[p, k] · W[k, q] + ∑ k < 128, b[p, k] · W[128 + k, q]`. -/
theorem concat_matmul_apply (a b : Vec Ideal S2000x128 .f32) (W : Vec Ideal S256x64 .f32) (p : Fin 2000) (q : Fin 64) :
    matmul (F := Ideal) dot_S2000x256_S256x64_S2000x64_1_0_0_1_n_n none
      (concatenate S2000x256 1 [⟨S2000x128, truncf .bf16 a bitsLt_bf16_f32⟩, ⟨S2000x128, truncf .bf16 b bitsLt_bf16_f32⟩]
        concatenates_S2000x128_S2000x128_S2000x256_d1)
      (truncf .bf16 W bitsLt_bf16_f32) (constant S2000x64 .f32 0x00000000#32) (ix2 p q)
    = Cert.Spec.projAt a b W p q := by
  rw [matmul_zero_apply, Cert.Laws.sum_256_split]
  unfold Cert.Spec.projAt
  congr 1
  · refine Finset.sum_congr rfl fun k _ => ?_
    rw [concat_left]
    rfl
  · refine Finset.sum_congr rfl fun k _ => ?_
    rw [concat_right]
    rfl

end Cert.KernelIdeal.ConcatProj

end
-- ==== Proof.EdgeValue.lean ====
/-
  The second region: the directed edges' samples, 250 row blocks of 2000 edges. Each point projects its blocks of the
  two gathered hidden-row arrays, concatenated one way for the incoming sample and the other way for the outgoing one,
  and adds the scaled noise; the blocks tile the edges.
-/
import proofs.«169134_j56556129354623_1_alg».proof.Proof.Gen.KernelIdeal.Frame
import proofs.«169134_j56556129354623_1_alg».proof.Proof.Spec
import proofs.«169134_j56556129354623_1_alg».proof.Proof.Laws
import proofs.«169134_j56556129354623_1_alg».proof.Proof.ConcatProj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffer contents when the region is entered
variable (V : (c : Dev nD) → (b : Ref sig .tc) → Buf (Elt Ideal) ((c : Thread nD τ).loc b))

/-! ## One block's samples at an entry -/

/-- The incoming sample of a block at an entry: the noise times the exponential of the pair's projection on
    `W_sigma`, plus its projection on `W_miu`. The changes of float format and the identity reshapes read through. -/
theorem sample_in_apply (x0 x1 : Vec Ideal S2000x128 .f32) (wm ws : Vec Ideal S256x64 .f32)
    (z : Vec Ideal S2000x64 .f32) (p : Fin 2000) (q : Fin 64) :
    k1_pay5 (F := Ideal) x0 x1 wm ws z (ix2 p q) = Cert.Spec.edgeAt x0 x1 wm ws z p q := by
  unfold k1_pay5 k1_pay1 k1_pay2 k1_pay3 k1_pay4
  rw [shapeCast_self, shapeCast_self]
  show z (ix2 p q) * Ideal.exp (matmul (F := Ideal) dot_S2000x256_S256x64_S2000x64_1_0_0_1_n_n none
      (concatenate S2000x256 1 [⟨S2000x128, truncf .bf16 x0 bitsLt_bf16_f32⟩, ⟨S2000x128, truncf .bf16 x1 bitsLt_bf16_f32⟩]
        concatenates_S2000x128_S2000x128_S2000x256_d1)
      (truncf .bf16 ws bitsLt_bf16_f32) (constant S2000x64 .f32 0x00000000#32) (ix2 p q))
    + matmul (F := Ideal) dot_S2000x256_S256x64_S2000x64_1_0_0_1_n_n none
      (concatenate S2000x256 1 [⟨S2000x128, truncf .bf16 x0 bitsLt_bf16_f32⟩, ⟨S2000x128, truncf .bf16 x1 bitsLt_bf16_f32⟩]
        concatenates_S2000x128_S2000x128_S2000x256_d1)
      (truncf .bf16 wm bitsLt_bf16_f32) (constant S2000x64 .f32 0x00000000#32) (ix2 p q) = _
  rw [Cert.KernelIdeal.ConcatProj.concat_matmul_apply, Cert.KernelIdeal.ConcatProj.concat_matmul_apply]
  rfl

/-- The outgoing sample of a block at an entry: the same with the pair concatenated the other way round. -/
theorem sample_out_apply (x0 x1 : Vec Ideal S2000x128 .f32) (wm ws : Vec Ideal S256x64 .f32)
    (z : Vec Ideal S2000x64 .f32) (p : Fin 2000) (q : Fin 64) :
    k1_pay6 (F := Ideal) x0 x1 wm ws z (ix2 p q) = Cert.Spec.edgeAt x1 x0 wm ws z p q := by
  unfold k1_pay6 k1_pay1 k1_pay2 k1_pay3 k1_pay4
  rw [shapeCast_self, shapeCast_self]
  show z (ix2 p q) * Ideal.exp (matmul (F := Ideal) dot_S2000x256_S256x64_S2000x64_1_0_0_1_n_n none
      (concatenate S2000x256 1 [⟨S2000x128, truncf .bf16 x1 bitsLt_bf16_f32⟩, ⟨S2000x128, truncf .bf16 x0 bitsLt_bf16_f32⟩]
        concatenates_S2000x128_S2000x128_S2000x256_d1)
      (truncf .bf16 ws bitsLt_bf16_f32) (constant S2000x64 .f32 0x00000000#32) (ix2 p q))
    + matmul (F := Ideal) dot_S2000x256_S256x64_S2000x64_1_0_0_1_n_n none
      (concatenate S2000x256 1 [⟨S2000x128, truncf .bf16 x1 bitsLt_bf16_f32⟩, ⟨S2000x128, truncf .bf16 x0 bitsLt_bf16_f32⟩]
        concatenates_S2000x128_S2000x128_S2000x256_d1)
      (truncf .bf16 wm bitsLt_bf16_f32) (constant S2000x64 .f32 0x00000000#32) (ix2 p q) = _
  rw [Cert.KernelIdeal.ConcatProj.concat_matmul_apply, Cert.KernelIdeal.ConcatProj.concat_matmul_apply]
  rfl

/-- A sample depends on the hidden rows and the noise only through the edge's own row: if row `p` of the blocks is
    row `r` of the arrays and the weights are the same, the block's sample at `(p, q)` is the arrays' at `(r, q)`. -/
theorem edgeAt_of_rows {n : ℕ} (A B : Cert.Spec.Arr2 n 128) (Wm Ws : Cert.Spec.Arr2 256 64) (Z : Cert.Spec.Arr2 n 64)
    (a b : Cert.Spec.Arr2 2000 128) (wm ws : Cert.Spec.Arr2 256 64) (z : Cert.Spec.Arr2 2000 64)
    (r : Fin n) (p : Fin 2000) (q : Fin 64)
    (ha : ∀ k : Fin 128, a (ix2 p k) = A (ix2 r k)) (hb : ∀ k : Fin 128, b (ix2 p k) = B (ix2 r k))
    (hwm : wm = Wm) (hws : ws = Ws) (hz : z (ix2 p q) = Z (ix2 r q)) :
    Cert.Spec.edgeAt a b wm ws z p q = Cert.Spec.edgeAt A B Wm Ws Z r q := by
  subst hwm hws
  unfold Cert.Spec.edgeAt Cert.Spec.projAt
  rw [hz]
  simp only [ha, hb]

/-! ## From blocks to the arrays -/

/-- The whole-block rectangle's offsets are zero on both axes. -/
theorem zero_off : (![0, 0] : Fin 2 → Nat) = fun _ => 0 := funext fun a => by fin_cases a <;> rfl

/-- The printed index maps, decided over the grid: at point `t` the row-blocked windows (the two hidden-row arrays,
    the two noises, the two outputs) sit at row block `t`, column block 0, and the weights at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- WHAT POINT `t` WRITES BACK to the incoming samples' array is block `t` of the samples of the arrays as the
    region finds them. -/
theorem flushed_in_eq (c : Dev nD) (t : Fin cfg1.N) :
    (dat1 (F := Ideal) V c).flushed 6 t = ((cfg1.win 6).blk t).view.read (Elt Ideal)
      (Cert.Spec.edge (V c main_v26) (V c main_v35) (V c main_arg2) (V c main_arg3) (V c main_arg6)) := by
  show (cfg1.win 6).cut (grid1.coords t) ((dat1 (F := Ideal) V c).after 6 t) = _
  rw [after1_6]
  unfold out1_6
  rw [View.canon_unit_zero zero_off]
  simp only [View.ld_unit_zero (S := S2000x128) zero_off, View.ld_unit_zero (S := S256x64) zero_off,
    View.ld_unit_zero (S := S2000x64) zero_off]
  obtain ⟨e00, e01, e10, e11, e20, e21, e30, e31, e40, e41, e50, e51, e60, e61, e70, e71⟩ := idx_facts t
  have ht : t.val < 250 := t.isLt
  funext j
  obtain ⟨p, q, rfl⟩ : ∃ (p : Fin 2000) (q : Fin 64), j = ix2 p q := ⟨j 0, j 1, eq_ix2 j⟩
  have hp : p.val < 2000 := p.isLt
  have hr : t.val * 2000 + p.val < 500000 := by omega
  have e6 : ((cfg1.win 6).blk t).view.emb (ix2 p q) = ix2 (⟨t.val * 2000 + p.val, hr⟩ : Fin 500000) q := by
    funext a; apply Fin.ext
    match a with
    | ⟨0, _⟩ => show win1_6.index t (0 : Fin 2) * 2000 + 1 * p.val = t.val * 2000 + p.val; omega
    | ⟨1, _⟩ => show win1_6.index t (1 : Fin 2) * 64 + 1 * q.val = q.val; omega
  show k1_pay5 (F := Ideal) (iblk1 V c 0 t) (iblk1 V c 1 t) (iblk1 V c 2 t) (iblk1 V c 3 t) (iblk1 V c 4 t) (ix2 p q)
    = Cert.Spec.edge (V c main_v26) (V c main_v35) (V c main_arg2) (V c main_arg3) (V c main_arg6)
        (((cfg1.win 6).blk t).view.emb (ix2 p q))
  rw [e6]
  refine (sample_in_apply _ _ _ _ _ p q).trans ?_
  show _ = Cert.Spec.edgeAt (V c main_v26) (V c main_v35) (V c main_arg2) (V c main_arg3) (V c main_arg6)
    (⟨t.val * 2000 + p.val, hr⟩ : Fin 500000) q
  refine edgeAt_of_rows _ _ _ _ _ _ _ _ _ _ _ _ _ ?_ ?_ ?_ ?_ ?_
  · intro k
    show V c main_v26 (((cfg1.win 0).blk t).view.emb (ix2 p k)) = V c main_v26 (ix2 (⟨t.val * 2000 + p.val, hr⟩ : Fin 500000) k)
    refine congrArg _ ?_
    funext a; apply Fin.ext
    match a with
    | ⟨0, _⟩ => show win1_0.index t (0 : Fin 2) * 2000 + 1 * p.val = t.val * 2000 + p.val; omega
    | ⟨1, _⟩ => show win1_0.index t (1 : Fin 2) * 128 + 1 * k.val = k.val; omega
  · intro k
    show V c main_v35 (((cfg1.win 1).blk t).view.emb (ix2 p k)) = V c main_v35 (ix2 (⟨t.val * 2000 + p.val, hr⟩ : Fin 500000) k)
    refine congrArg _ ?_
    funext a; apply Fin.ext
    match a with
    | ⟨0, _⟩ => show win1_1.index t (0 : Fin 2) * 2000 + 1 * p.val = t.val * 2000 + p.val; omega
    | ⟨1, _⟩ => show win1_1.index t (1 : Fin 2) * 128 + 1 * k.val = k.val; omega
  · funext y
    show V c main_arg2 (((cfg1.win 2).blk t).view.emb y) = V c main_arg2 y
    refine congrArg _ ?_
    funext a; apply Fin.ext
    match a with
    | ⟨0, _⟩ => show win1_2.index t (0 : Fin 2) * 256 + 1 * (y 0).val = (y 0).val; omega
    | ⟨1, _⟩ => show win1_2.index t (1 : Fin 2) * 64 + 1 * (y 1).val = (y 1).val; omega
  · funext y
    show V c main_arg3 (((cfg1.win 3).blk t).view.emb y) = V c main_arg3 y
    refine congrArg _ ?_
    funext a; apply Fin.ext
    match a with
    | ⟨0, _⟩ => show win1_3.index t (0 : Fin 2) * 256 + 1 * (y 0).val = (y 0).val; omega
    | ⟨1, _⟩ => show win1_3.index t (1 : Fin 2) * 64 + 1 * (y 1).val = (y 1).val; omega
  · show V c main_arg6 (((cfg1.win 4).blk t).view.emb (ix2 p q)) = V c main_arg6 (ix2 (⟨t.val * 2000 + p.val, hr⟩ : Fin 500000) q)
    refine congrArg _ ?_
    funext a; apply Fin.ext
    match a with
    | ⟨0, _⟩ => show win1_4.index t (0 : Fin 2) * 2000 + 1 * p.val = t.val * 2000 + p.val; omega
    | ⟨1, _⟩ => show win1_4.index t (1 : Fin 2) * 64 + 1 * q.val = q.val; omega

/-- WHAT POINT `t` WRITES BACK to the outgoing samples' array is block `t` of the samples of the arrays as the
    region finds them, the two hidden-row arrays exchanged. -/
theorem flushed_out_eq (c : Dev nD) (t : Fin cfg1.N) :
    (dat1 (F := Ideal) V c).flushed 7 t = ((cfg1.win 7).blk t).view.read (Elt Ideal)
      (Cert.Spec.edge (V c main_v35) (V c main_v26) (V c main_arg2) (V c main_arg3) (V c main_arg7)) := by
  show (cfg1.win 7).cut (grid1.coords t) ((dat1 (F := Ideal) V c).after 7 t) = _
  rw [after1_7]
  unfold out1_7
  rw [View.canon_unit_zero zero_off]
  simp only [View.ld_unit_zero (S := S2000x128) zero_off, View.ld_unit_zero (S := S256x64) zero_off,
    View.ld_unit_zero (S := S2000x64) zero_off]
  obtain ⟨e00, e01, e10, e11, e20, e21, e30, e31, e40, e41, e50, e51, e60, e61, e70, e71⟩ := idx_facts t
  have ht : t.val < 250 := t.isLt
  funext j
  obtain ⟨p, q, rfl⟩ : ∃ (p : Fin 2000) (q : Fin 64), j = ix2 p q := ⟨j 0, j 1, eq_ix2 j⟩
  have hp : p.val < 2000 := p.isLt
  have hr : t.val * 2000 + p.val < 500000 := by omega
  have e7 : ((cfg1.win 7).blk t).view.emb (ix2 p q) = ix2 (⟨t.val * 2000 + p.val, hr⟩ : Fin 500000) q := by
    funext a; apply Fin.ext
    match a with
    | ⟨0, _⟩ => show win1_7.index t (0 : Fin 2) * 2000 + 1 * p.val = t.val * 2000 + p.val; omega
    | ⟨1, _⟩ => show win1_7.index t (1 : Fin 2) * 64 + 1 * q.val = q.val; omega
  show k1_pay6 (F := Ideal) (iblk1 V c 0 t) (iblk1 V c 1 t) (iblk1 V c 2 t) (iblk1 V c 3 t) (iblk1 V c 5 t) (ix2 p q)
    = Cert.Spec.edge (V c main_v35) (V c main_v26) (V c main_arg2) (V c main_arg3) (V c main_arg7)
        (((cfg1.win 7).blk t).view.emb (ix2 p q))
  rw [e7]
  refine (sample_out_apply _ _ _ _ _ p q).trans ?_
  show _ = Cert.Spec.edgeAt (V c main_v35) (V c main_v26) (V c main_arg2) (V c main_arg3) (V c main_arg7)
    (⟨t.val * 2000 + p.val, hr⟩ : Fin 500000) q
  refine edgeAt_of_rows _ _ _ _ _ _ _ _ _ _ _ _ _ ?_ ?_ ?_ ?_ ?_
  · intro k
    show V c main_v35 (((cfg1.win 1).blk t).view.emb (ix2 p k)) = V c main_v35 (ix2 (⟨t.val * 2000 + p.val, hr⟩ : Fin 500000) k)
    refine congrArg _ ?_
    funext a; apply Fin.ext
    match a with
    | ⟨0, _⟩ => show win1_1.index t (0 : Fin 2) * 2000 + 1 * p.val = t.val * 2000 + p.val; omega
    | ⟨1, _⟩ => show win1_1.index t (1 : Fin 2) * 128 + 1 * k.val = k.val; omega
  · intro k
    show V c main_v26 (((cfg1.win 0).blk t).view.emb (ix2 p k)) = V c main_v26 (ix2 (⟨t.val * 2000 + p.val, hr⟩ : Fin 500000) k)
    refine congrArg _ ?_
    funext a; apply Fin.ext
    match a with
    | ⟨0, _⟩ => show win1_0.index t (0 : Fin 2) * 2000 + 1 * p.val = t.val * 2000 + p.val; omega
    | ⟨1, _⟩ => show win1_0.index t (1 : Fin 2) * 128 + 1 * k.val = k.val; omega
  · funext y
    show V c main_arg2 (((cfg1.win 2).blk t).view.emb y) = V c main_arg2 y
    refine congrArg _ ?_
    funext a; apply Fin.ext
    match a with
    | ⟨0, _⟩ => show win1_2.index t (0 : Fin 2) * 256 + 1 * (y 0).val = (y 0).val; omega
    | ⟨1, _⟩ => show win1_2.index t (1 : Fin 2) * 64 + 1 * (y 1).val = (y 1).val; omega
  · funext y
    show V c main_arg3 (((cfg1.win 3).blk t).view.emb y) = V c main_arg3 y
    refine congrArg _ ?_
    funext a; apply Fin.ext
    match a with
    | ⟨0, _⟩ => show win1_3.index t (0 : Fin 2) * 256 + 1 * (y 0).val = (y 0).val; omega
    | ⟨1, _⟩ => show win1_3.index t (1 : Fin 2) * 64 + 1 * (y 1).val = (y 1).val; omega
  · show V c main_arg7 (((cfg1.win 5).blk t).view.emb (ix2 p q)) = V c main_arg7 (ix2 (⟨t.val * 2000 + p.val, hr⟩ : Fin 500000) q)
    refine congrArg _ ?_
    funext a; apply Fin.ext
    match a with
    | ⟨0, _⟩ => show win1_5.index t (0 : Fin 2) * 2000 + 1 * p.val = t.val * 2000 + p.val; omega
    | ⟨1, _⟩ => show win1_5.index t (1 : Fin 2) * 64 + 1 * q.val = q.val; omega

/-- An index of the incoming samples' array is in point `t`'s block iff each coordinate is in the block's range on
    its axis. -/
theorem mem_blk_in (t : Fin cfg1.N) (i : S500000x64.Idx) :
    i ∈ ((cfg1.win 6).blk t).view.set ↔ ∀ a : Fin 2, win1_6.index t a * S2000x64.size a ≤ (i a).val
      ∧ (i a).val < win1_6.index t a * S2000x64.size a + S2000x64.size a := by
  show i ∈ ((View.whole main_v36_0).slice (win1_6.rect t)).set ↔ _
  rw [View.set_slice_whole, Rect.mem_set_unit]
  exact Iff.rfl

/-- The same for the outgoing samples' array. -/
theorem mem_blk_out (t : Fin cfg1.N) (i : S500000x64.Idx) :
    i ∈ ((cfg1.win 7).blk t).view.set ↔ ∀ a : Fin 2, win1_7.index t a * S2000x64.size a ≤ (i a).val
      ∧ (i a).val < win1_7.index t a * S2000x64.size a + S2000x64.size a := by
  show i ∈ ((View.whole main_v36_1).slice (win1_7.rect t)).set ↔ _
  rw [View.set_slice_whole, Rect.mem_set_unit]
  exact Iff.rfl

/-- The 250 blocks of 2000 rows tile the incoming samples' array: row `r` is in the block of point `r / 2000`. -/
theorem cover_in (i : S500000x64.Idx) :
    ∃ t : Fin cfg1.N, (cfg1.win 6).flush t = true ∧ i ∈ ((cfg1.win 6).blk t).view.set := by
  have hi0 : (i 0).val < 500000 := (i 0).isLt
  have hi1 : (i 1).val < 64 := (i 1).isLt
  have hq : (i 0).val / 2000 < 250 := by omega
  obtain ⟨e00, e01, e10, e11, e20, e21, e30, e31, e40, e41, e50, e51, e60, e61, e70, e71⟩ :=
    idx_facts (⟨(i 0).val / 2000, hq⟩ : Fin cfg1.N)
  have q0 : win1_6.index (⟨(i 0).val / 2000, hq⟩ : Fin cfg1.N) (0 : Fin 2) = (i 0).val / 2000 := e60
  refine ⟨⟨(i 0).val / 2000, hq⟩, flush1_6 _, ?_⟩
  rw [mem_blk_in]
  intro a
  match a with
  | ⟨0, _⟩ =>
    show win1_6.index (⟨(i 0).val / 2000, hq⟩ : Fin cfg1.N) (0 : Fin 2) * 2000 ≤ (i 0).val
      ∧ (i 0).val < win1_6.index (⟨(i 0).val / 2000, hq⟩ : Fin cfg1.N) (0 : Fin 2) * 2000 + 2000
    omega
  | ⟨1, _⟩ =>
    show win1_6.index (⟨(i 0).val / 2000, hq⟩ : Fin cfg1.N) (1 : Fin 2) * 64 ≤ (i 1).val
      ∧ (i 1).val < win1_6.index (⟨(i 0).val / 2000, hq⟩ : Fin cfg1.N) (1 : Fin 2) * 64 + 64
    omega

/-- The same for the outgoing samples' array. -/
theorem cover_out (i : S500000x64.Idx) :
    ∃ t : Fin cfg1.N, (cfg1.win 7).flush t = true ∧ i ∈ ((cfg1.win 7).blk t).view.set := by
  have hi0 : (i 0).val < 500000 := (i 0).isLt
  have hi1 : (i 1).val < 64 := (i 1).isLt
  have hq : (i 0).val / 2000 < 250 := by omega
  obtain ⟨e00, e01, e10, e11, e20, e21, e30, e31, e40, e41, e50, e51, e60, e61, e70, e71⟩ :=
    idx_facts (⟨(i 0).val / 2000, hq⟩ : Fin cfg1.N)
  have q0 : win1_7.index (⟨(i 0).val / 2000, hq⟩ : Fin cfg1.N) (0 : Fin 2) = (i 0).val / 2000 := e70
  refine ⟨⟨(i 0).val / 2000, hq⟩, flush1_7 _, ?_⟩
  rw [mem_blk_out]
  intro a
  match a with
  | ⟨0, _⟩ =>
    show win1_7.index (⟨(i 0).val / 2000, hq⟩ : Fin cfg1.N) (0 : Fin 2) * 2000 ≤ (i 0).val
      ∧ (i 0).val < win1_7.index (⟨(i 0).val / 2000, hq⟩ : Fin cfg1.N) (0 : Fin 2) * 2000 + 2000
    omega
  | ⟨1, _⟩ =>
    show win1_7.index (⟨(i 0).val / 2000, hq⟩ : Fin cfg1.N) (1 : Fin 2) * 64 ≤ (i 1).val
      ∧ (i 1).val < win1_7.index (⟨(i 0).val / 2000, hq⟩ : Fin cfg1.N) (1 : Fin 2) * 64 + 64
    omega

/-- The incoming samples: `noise_in · exp ([h_src | h_dst] · W_sigma) + [h_src | h_dst] · W_miu`. -/
theorem final_in (c : Dev nD) :
    (dat1 (F := Ideal) V c).arrAt 6 cfg1.N
      = Cert.Spec.edge (V c main_v26) (V c main_v35) (V c main_arg2) (V c main_arg3) (V c main_arg6) :=
  (dat1 (F := Ideal) V c).arrAt_eq_of_cover 6
    (Cert.Spec.edge (V c main_v26) (V c main_v35) (V c main_arg2) (V c main_arg3) (V c main_arg6))
    (fun t _ => flushed_in_eq V c t) cover_in

/-- The outgoing samples: the same with the two hidden-row arrays exchanged and the other noise. -/
theorem final_out (c : Dev nD) :
    (dat1 (F := Ideal) V c).arrAt 7 cfg1.N
      = Cert.Spec.edge (V c main_v35) (V c main_v26) (V c main_arg2) (V c main_arg3) (V c main_arg7) :=
  (dat1 (F := Ideal) V c).arrAt_eq_of_cover 7
    (Cert.Spec.edge (V c main_v35) (V c main_v26) (V c main_arg2) (V c main_arg3) (V c main_arg7))
    (fun t _ => flushed_out_eq V c t) cover_out

end Cert.KernelIdeal.EdgeValue

end
-- ==== Proof.NodePrepValue.lean ====
/-
  The third region: the bidirectional edges' weighted terms, 500 row blocks of 2000 edges. Each point projects its
  blocks of the two gathered hidden-row arrays and weights them by the edge value (a one-column block): the mean term
  `v · miu` and the variance term `v² · exp (logstd)`; the blocks tile the edges.
-/
import proofs.«169134_j56556129354623_1_alg».proof.Proof.Gen.KernelIdeal.Frame
import proofs.«169134_j56556129354623_1_alg».proof.Proof.Spec
import proofs.«169134_j56556129354623_1_alg».proof.Proof.Laws
import proofs.«169134_j56556129354623_1_alg».proof.Proof.ConcatProj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodePrepValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## One block's terms at an entry -/

/-- The block offsets of a whole-block access, as the constant zero. -/
theorem offsets_zero : (![0, 0] : Fin 2 → Nat) = fun _ => 0 := funext fun a => by fin_cases a <;> rfl

/-- A one-column array `[a, 1]` broadcast to `[a, b]` reads, at `(p, q)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The mean term of one block at `(p, q)`: the edge value of row `p` times the projection of the pair of rows. -/
theorem mean_block_apply (x0 x1 : Vec Ideal S2000x128 .f32) (w : Vec Ideal S256x64 .f32) (u : Vec Ideal S2000x1 .f32)
    (p : Fin 2000) (q : Fin 64) :
    k2_pay3 (F := Ideal) x0 x1 w u (ix2 p q) = u (ix2 p (0 : Fin 1)) * Cert.Spec.projAt x0 x1 w p q := by
  unfold k2_pay3 k2_pay1 k2_pay2
  rw [shapeCast_self, shapeCast_self, shapeCast_self]
  refine (mulf_apply _ _ _).trans ?_
  refine congrArg₂ (· * ·) ?_ ?_
  · exact broadcastTo_a1_ab_apply u broadcasts_S2000x1_S2000x64 p q
  · exact Cert.KernelIdeal.ConcatProj.concat_matmul_apply x0 x1 w p q

/-- The variance term of one block at `(p, q)`: the squared edge value of row `p` times the exponential of the
    projection of the pair of rows. -/
theorem var_block_apply (x0 x1 : Vec Ideal S2000x128 .f32) (w : Vec Ideal S256x64 .f32) (u : Vec Ideal S2000x1 .f32)
    (p : Fin 2000) (q : Fin 64) :
    k2_pay4 (F := Ideal) x0 x1 w u (ix2 p q)
      = (u (ix2 p (0 : Fin 1)) * u (ix2 p (0 : Fin 1))) * Ideal.exp (Cert.Spec.projAt x0 x1 w p q) := by
  unfold k2_pay4 k2_pay1 k2_pay2
  rw [shapeCast_self, shapeCast_self, shapeCast_self]
  refine (mulf_apply _ _ _).trans ?_
  refine congrArg₂ (· * ·) ?_ ?_
  · refine (broadcastTo_a1_ab_apply _ broadcasts_S2000x1_S2000x64 p q).trans ?_
    exact mulf_apply u u _
  · exact congrArg Ideal.exp (Cert.KernelIdeal.ConcatProj.concat_matmul_apply x0 x1 w p q)

/-- The projection of a pair of rows reads only those rows and one column of the weight. -/
theorem projAt_congr {n n' : ℕ} (a b : Cert.Spec.Arr2 n 128) (a' b' : Cert.Spec.Arr2 n' 128) (W W' : Cert.Spec.Arr2 256 64)
    (r : Fin n) (r' : Fin n') (q q' : Fin 64)
    (ha : ∀ k : Fin 128, a (ix2 r k) = a' (ix2 r' k)) (hb : ∀ k : Fin 128, b (ix2 r k) = b' (ix2 r' k))
    (hW : ∀ k : Fin 256, W (ix2 k q) = W' (ix2 k q')) :
    Cert.Spec.projAt a b W r q = Cert.Spec.projAt a' b' W' r' q' := by
  unfold Cert.Spec.projAt
  refine congrArg₂ (· + ·) ?_ ?_
  · exact Finset.sum_congr rfl fun k _ => congrArg₂ (· * ·) (ha k) (hW _)
  · exact Finset.sum_congr rfl fun k _ => congrArg₂ (· * ·) (hb k) (hW _)

/-- The mean term of a block whose rows are rows of the arrays: at `(p, q)` it is the arrays' term at the row and
    column the block's entry stands for. -/
theorem mean_block_eq {n : ℕ} (A B : Cert.Spec.Arr2 n 128) (W : Cert.Spec.Arr2 256 64) (v : Cert.Spec.Arr2 n 1)
    (x0 x1 : Vec Ideal S2000x128 .f32) (w : Vec Ideal S256x64 .f32) (u : Vec Ideal S2000x1 .f32)
    (p : Fin 2000) (q : Fin 64) (r : Fin n) (q' : Fin 64)
    (h0 : ∀ k : Fin 128, x0 (ix2 p k) = A (ix2 r k)) (h1 : ∀ k : Fin 128, x1 (ix2 p k) = B (ix2 r k))
    (hw : ∀ k : Fin 256, w (ix2 k q) = W (ix2 k q')) (hu : u (ix2 p (0 : Fin 1)) = v (ix2 r (0 : Fin 1))) :
    k2_pay3 (F := Ideal) x0 x1 w u (ix2 p q) = Cert.Spec.wmiuAt A B W v r q' := by
  rw [mean_block_apply]
  unfold Cert.Spec.wmiuAt
  exact congrArg₂ (· * ·) hu (projAt_congr x0 x1 A B w W p r q q' h0 h1 hw)

/-- The variance term of a block whose rows are rows of the arrays: at `(p, q)` it is the arrays' term at the row
    and column the block's entry stands for. -/
theorem var_block_eq {n : ℕ} (A B : Cert.Spec.Arr2 n 128) (W : Cert.Spec.Arr2 256 64) (v : Cert.Spec.Arr2 n 1)
    (x0 x1 : Vec Ideal S2000x128 .f32) (w : Vec Ideal S256x64 .f32) (u : Vec Ideal S2000x1 .f32)
    (p : Fin 2000) (q : Fin 64) (r : Fin n) (q' : Fin 64)
    (h0 : ∀ k : Fin 128, x0 (ix2 p k) = A (ix2 r k)) (h1 : ∀ k : Fin 128, x1 (ix2 p k) = B (ix2 r k))
    (hw : ∀ k : Fin 256, w (ix2 k q) = W (ix2 k q')) (hu : u (ix2 p (0 : Fin 1)) = v (ix2 r (0 : Fin 1))) :
    k2_pay4 (F := Ideal) x0 x1 w u (ix2 p q) = Cert.Spec.wvarAt A B W v r q' := by
  rw [var_block_apply]
  unfold Cert.Spec.wvarAt
  exact congrArg₂ (· * ·) (congrArg₂ (· * ·) hu hu) (congrArg Ideal.exp (projAt_congr x0 x1 A B w W p r q q' h0 h1 hw))

/-! ## From blocks to the arrays -/

-- the buffer contents when the region is entered
variable (V : (c : Dev nD) → (b : Ref sig .tc) → Buf (Elt Ideal) ((c : Thread nD τ).loc b))

/-- The printed index maps over the grid: the row windows and the outputs sit at row block `t`, column block 0; the
    weights at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- What point `t` writes back to the mean terms' array is block `t` of the weighted mean terms. -/
theorem flushed_miu_eq (c : Dev nD) (t : Fin cfg2.N) :
    (dat2 (F := Ideal) V c).flushed 5 t = ((cfg2.win 5).blk t).view.read (Elt Ideal)
      (Cert.Spec.wmiu (V c main_v45) (V c main_v54) (V c main_arg2) (V c main_v55)) := by
  show (cfg2.win 5).cut (grid2.coords t) ((dat2 V c).after 5 t) = _
  rw [after2_5]
  unfold out2_5
  rw [View.canon_unit_zero offsets_zero]
  simp only [View.ld_unit_zero (S := S2000x128) offsets_zero, View.ld_unit_zero (S := S256x64) offsets_zero,
    View.ld_unit_zero (S := S2000x1) offsets_zero]
  obtain ⟨a0, a1, b0, b1, c0, c1, d0, d1, e0, e1, f0, f1, g0, g1⟩ := index_facts t
  funext j
  obtain ⟨p, q, rfl⟩ : ∃ (p : Fin 2000) (q : Fin 64), j = ix2 p q := ⟨j 0, j 1, eq_ix2 j⟩
  show k2_pay3 (F := Ideal) (iblk2 V c 0 t) (iblk2 V c 1 t) (iblk2 V c 2 t) (iblk2 V c 4 t) (ix2 p q)
    = Cert.Spec.wmiuAt (V c main_v45) (V c main_v54) (V c main_arg2) (V c main_v55)
        ((((cfg2.win 5).blk t).view.emb (ix2 p q)) 0) ((((cfg2.win 5).blk t).view.emb (ix2 p q)) 1)
  refine mean_block_eq _ _ _ _ _ _ _ _ p q _ _ (fun k => ?_) (fun k => ?_) (fun k => ?_) ?_
  · show V c main_v45 (((cfg2.win 0).blk t).view.emb (ix2 p k)) = _
    refine congrArg _ (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 128 + 1 * k.val = k.val; omega
  · show V c main_v54 (((cfg2.win 1).blk t).view.emb (ix2 p k)) = _
    refine congrArg _ (funext fun a => Fin.ext ?_)
    match a with
    | ⟨0, _⟩ => show win2_1.index t (0 : Fin 2) * 2000 + 1 * p.val = win2_5.index t (0 : Fin 2) * 2000 + 1 * p.val; omega
    | ⟨1, _⟩ => show win2_1.index t (1 : Fin 2) * 128 + 1 * k.val = k.val; omega
  · show V c main_arg2 (((cfg2.win 2).blk t).view.emb (ix2 k q)) = _
    refine congrArg _ (funext fun a => Fin.ext ?_)
    match a with
    | ⟨0, _⟩ => show win2_2.index t (0 : Fin 2) * 256 + 1 * k.val = k.val; omega
    | ⟨1, _⟩ => show win2_2.index t (1 : Fin 2) * 64 + 1 * q.val = win2_5.index t (1 : Fin 2) * 64 + 1 * q.val; omega
  · show V c main_v55 (((cfg2.win 4).blk t).view.emb (ix2 p (0 : Fin 1))) = _
    refine congrArg _ (funext fun a => Fin.ext ?_)
    match a with
    | ⟨0, _⟩ => show win2_4.index t (0 : Fin 2) * 2000 + 1 * p.val = win2_5.index t (0 : Fin 2) * 2000 + 1 * p.val; omega
    | ⟨1, _⟩ => show win2_4.index t (1 : Fin 2) * 1 + 1 * 0 = 0; omega

/-- An index of the mean terms' array is in point `t`'s block iff each coordinate is in the block's range on its axis. -/
theorem mem_blk_miu (t : Fin cfg2.N) (i : S1000000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v56_0).slice (win2_5.rect t)).set ↔ _
  rw [View.set_slice_whole, Rect.mem_set_unit]
  exact Iff.rfl

/-- Every edge row lies in the block of the point `row / 2000`: the blocks tile the array. -/
theorem cover_miu (i : S1000000x64.Idx) :
    ∃ t : Fin cfg2.N, (cfg2.win 5).flush t = true ∧ i ∈ ((cfg2.win 5).blk t).view.set := by
  have hi0 : (i 0).val < 1000000 := (i 0).isLt
  have hi1 : (i 1).val < 64 := (i 1).isLt
  obtain ⟨t, ht⟩ : ∃ t : Fin cfg2.N, t.val = (i 0).val / 2000 :=
    ⟨⟨(i 0).val / 2000, by show (i 0).val / 2000 < 500; omega⟩, rfl⟩
  obtain ⟨a0, a1, b0, b1, c0, c1, d0, d1, e0, e1, f0, f1, g0, g1⟩ := index_facts t
  refine ⟨t, flush2_5 t, ?_⟩
  rw [mem_blk_miu]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 64 ≤ (i 1).val ∧ (i 1).val < win2_5.index t (1 : Fin 2) * 64 + 64
    omega

/-- The weighted mean terms `v · ([b0 | b1] · W_miu)`. -/
theorem final_miu (c : Dev nD) :
    (dat2 (F := Ideal) V c).arrAt 5 cfg2.N
      = Cert.Spec.wmiu (V c main_v45) (V c main_v54) (V c main_arg2) (V c main_v55) :=
  (dat2 (F := Ideal) V c).arrAt_eq_of_cover 5 _ (fun t _ => flushed_miu_eq V c t) cover_miu

/-- What point `t` writes back to the variance terms' array is block `t` of the weighted variance terms. -/
theorem flushed_var_eq (c : Dev nD) (t : Fin cfg2.N) :
    (dat2 (F := Ideal) V c).flushed 6 t = ((cfg2.win 6).blk t).view.read (Elt Ideal)
      (Cert.Spec.wvar (V c main_v45) (V c main_v54) (V c main_arg3) (V c main_v55)) := by
  show (cfg2.win 6).cut (grid2.coords t) ((dat2 V c).after 6 t) = _
  rw [after2_6]
  unfold out2_6
  rw [View.canon_unit_zero offsets_zero]
  simp only [View.ld_unit_zero (S := S2000x128) offsets_zero, View.ld_unit_zero (S := S256x64) offsets_zero,
    View.ld_unit_zero (S := S2000x1) offsets_zero]
  obtain ⟨a0, a1, b0, b1, c0, c1, d0, d1, e0, e1, f0, f1, g0, g1⟩ := index_facts t
  funext j
  obtain ⟨p, q, rfl⟩ : ∃ (p : Fin 2000) (q : Fin 64), j = ix2 p q := ⟨j 0, j 1, eq_ix2 j⟩
  show k2_pay4 (F := Ideal) (iblk2 V c 0 t) (iblk2 V c 1 t) (iblk2 V c 3 t) (iblk2 V c 4 t) (ix2 p q)
    = Cert.Spec.wvarAt (V c main_v45) (V c main_v54) (V c main_arg3) (V c main_v55)
        ((((cfg2.win 6).blk t).view.emb (ix2 p q)) 0) ((((cfg2.win 6).blk t).view.emb (ix2 p q)) 1)
  refine var_block_eq _ _ _ _ _ _ _ _ p q _ _ (fun k => ?_) (fun k => ?_) (fun k => ?_) ?_
  · show V c main_v45 (((cfg2.win 0).blk t).view.emb (ix2 p k)) = _
    refine congrArg _ (funext fun a => Fin.ext ?_)
    match a with
    | ⟨0, _⟩ => show win2_0.index t (0 : Fin 2) * 2000 + 1 * p.val = win2_6.index t (0 : Fin 2) * 2000 + 1 * p.val; omega
    | ⟨1, _⟩ => show win2_0.index t (1 : Fin 2) * 128 + 1 * k.val = k.val; omega
  · show V c main_v54 (((cfg2.win 1).blk t).view.emb (ix2 p k)) = _
    refine congrArg _ (funext fun a => Fin.ext ?_)
    match a with
    | ⟨0, _⟩ => show win2_1.index t (0 : Fin 2) * 2000 + 1 * p.val = win2_6.index t (0 : Fin 2) * 2000 + 1 * p.val; omega
    | ⟨1, _⟩ => show win2_1.index t (1 : Fin 2) * 128 + 1 * k.val = k.val; omega
  · show V c main_arg3 (((cfg2.win 3).blk t).view.emb (ix2 k q)) = _
    refine congrArg _ (funext fun a => Fin.ext ?_)
    match a with
    | ⟨0, _⟩ => show win2_3.index t (0 : Fin 2) * 256 + 1 * k.val = k.val; omega
    | ⟨1, _⟩ => show win2_3.index t (1 : Fin 2) * 64 + 1 * q.val = win2_6.index t (1 : Fin 2) * 64 + 1 * q.val; omega
  · show V c main_v55 (((cfg2.win 4).blk t).view.emb (ix2 p (0 : Fin 1))) = _
    refine congrArg _ (funext fun a => Fin.ext ?_)
    match a with
    | ⟨0, _⟩ => show win2_4.index t (0 : Fin 2) * 2000 + 1 * p.val = win2_6.index t (0 : Fin 2) * 2000 + 1 * p.val; omega
    | ⟨1, _⟩ => show win2_4.index t (1 : Fin 2) * 1 + 1 * 0 = 0; omega

/-- An index of the variance terms' array is in point `t`'s block iff each coordinate is in the block's range on its
    axis. -/
theorem mem_blk_var (t : Fin cfg2.N) (i : S1000000x64.Idx) :
    i ∈ ((cfg2.win 6).blk t).view.set ↔ ∀ a : Fin 2, win2_6.index t a * S2000x64.size a ≤ (i a).val
      ∧ (i a).val < win2_6.index t a * S2000x64.size a + S2000x64.size a := by
  show i ∈ ((View.whole main_v56_1).slice (win2_6.rect t)).set ↔ _
  rw [View.set_slice_whole, Rect.mem_set_unit]
  exact Iff.rfl

/-- Every edge row lies in the block of the point `row / 2000`: the blocks tile the array. -/
theorem cover_var (i : S1000000x64.Idx) :
    ∃ t : Fin cfg2.N, (cfg2.win 6).flush t = true ∧ i ∈ ((cfg2.win 6).blk t).view.set := by
  have hi0 : (i 0).val < 1000000 := (i 0).isLt
  have hi1 : (i 1).val < 64 := (i 1).isLt
  obtain ⟨t, ht⟩ : ∃ t : Fin cfg2.N, t.val = (i 0).val / 2000 :=
    ⟨⟨(i 0).val / 2000, by show (i 0).val / 2000 < 500; omega⟩, rfl⟩
  obtain ⟨a0, a1, b0, b1, c0, c1, d0, d1, e0, e1, f0, f1, g0, g1⟩ := index_facts t
  refine ⟨t, flush2_6 t, ?_⟩
  rw [mem_blk_var]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 64 ≤ (i 1).val ∧ (i 1).val < win2_6.index t (1 : Fin 2) * 64 + 64
    omega

/-- The weighted variance terms `v² · exp ([b0 | b1] · W_sigma)`. -/
theorem final_var (c : Dev nD) :
    (dat2 (F := Ideal) V c).arrAt 6 cfg2.N
      = Cert.Spec.wvar (V c main_v45) (V c main_v54) (V c main_arg3) (V c main_v55) :=
  (dat2 (F := Ideal) V c).arrAt_eq_of_cover 6 _ (fun t _ => flushed_var_eq V c t) cover_var

end Cert.KernelIdeal.NodePrepValue

end
-- ==== Proof.CombineValue.lean ====
/-
  The fourth region: the nodes' samples, 50 row blocks of 2000 nodes, entry by entry `noise · √var + miu`; the blocks
  tile the nodes.
-/
import proofs.«169134_j56556129354623_1_alg».proof.Proof.Gen.KernelIdeal.Frame
import proofs.«169134_j56556129354623_1_alg».proof.Proof.Spec
import proofs.«169134_j56556129354623_1_alg».proof.Proof.Laws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The offsets of a whole-block access are all zero. -/
theorem zero_offsets : (![0, 0] : Fin 2 → Nat) = fun _ => 0 := funext fun a => by fin_cases a <;> rfl

/-- The body's arithmetic at one entry of a block: the noise times the square root of the variance, plus the mean. -/
theorem sample_entry (noise var miu : Vec Ideal S2000x64 .f32) (p : Fin 2000) (q : Fin 64) :
    k3_pay1 noise var miu (ix2 p q) = noise (ix2 p q) * Ideal.sqrt (var (ix2 p q)) + miu (ix2 p q) := by
  unfold k3_pay1
  rw [shapeCast_self, shapeCast_self]
  rfl

/-- What the body leaves in the output's staging buffer, entry by entry, from the three input blocks (the mean, the
    variance, the noise, in the windows' order). -/
theorem block_entry (x0 x1 x2 : Vec Ideal S2000x64 .f32) (p : Fin 2000) (q : Fin 64) :
    out3_3 x0 x1 x2 (ix2 p q) = x2 (ix2 p q) * Ideal.sqrt (x1 (ix2 p q)) + x0 (ix2 p q) := by
  unfold out3_3
  rw [View.canon_unit_zero zero_offsets]
  simp only [View.ld_unit_zero (S := S2000x64) zero_offsets]
  exact sample_entry x2 x1 x0 p q

/-- The same at any index of the block. -/
theorem block_at (x0 x1 x2 : Vec Ideal S2000x64 .f32) (y : S2000x64.Idx) :
    out3_3 x0 x1 x2 y = x2 y * Ideal.sqrt (x1 y) + x0 y := by
  obtain ⟨p, q, rfl⟩ : ∃ (p : Fin 2000) (q : Fin 64), y = ix2 p q := ⟨y 0, y 1, eq_ix2 y⟩
  exact block_entry x0 x1 x2 p q

/-- The nodes' sample at an index, its three factors read at indices equal to it. -/
theorem sample_of_eq (miu var z : Cert.Spec.Arr2 100000 64) {i0 i1 i2 i3 : S100000x64.Idx}
    (h0 : i0 = i3) (h1 : i1 = i3) (h2 : i2 = i3) :
    z i2 * Ideal.sqrt (var i1) + miu i0 = Cert.Spec.comb miu var z i3 := by
  subst h0 h1 h2; rfl

/-- The windows' index maps over the grid: at point `t` every window's block is row block `t`, column block 0. -/
theorem block_index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

-- the buffer contents when the region is entered
variable (V : (c : Dev nD) → (b : Ref sig .tc) → Buf (Elt Ideal) ((c : Thread nD τ).loc b))

/-- What point `t` writes back is block `t` of the nodes' samples. -/
theorem flushed_eq (c : Dev nD) (t : Fin cfg3.N) :
    (dat3 (F := Ideal) V c).flushed 3 t
      = ((cfg3.win 3).blk t).view.read (Elt Ideal) (Cert.Spec.comb (V c main_v61) (V c main_v66) (V c main_arg8)) := by
  show (cfg3.win 3).cut (grid3.coords t) ((dat3 (F := Ideal) V c).after 3 t) = _
  rw [after3_3]
  obtain ⟨e0, e1, e2, e3, e4, e5, e6, e7⟩ := block_index_facts t
  funext j
  have h0 : ((cfg3.win 0).blk t).view.emb j = ((cfg3.win 3).blk t).view.emb j := by
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb j = ((cfg3.win 3).blk t).view.emb j := by
    funext a; apply Fin.ext
    match a with
    | ⟨0, _⟩ => show win3_1.index t (0 : Fin 2) * 2000 + 1 * (j 0).val = win3_3.index t (0 : Fin 2) * 2000 + 1 * (j 0).val; omega
    | ⟨1, _⟩ => show win3_1.index t (1 : Fin 2) * 64 + 1 * (j 1).val = win3_3.index t (1 : Fin 2) * 64 + 1 * (j 1).val; omega
  have h2 : ((cfg3.win 2).blk t).view.emb j = ((cfg3.win 3).blk t).view.emb j := by
    funext a; apply Fin.ext
    match a with
    | ⟨0, _⟩ => show win3_2.index t (0 : Fin 2) * 2000 + 1 * (j 0).val = win3_3.index t (0 : Fin 2) * 2000 + 1 * (j 0).val; omega
    | ⟨1, _⟩ => show win3_2.index t (1 : Fin 2) * 64 + 1 * (j 1).val = win3_3.index t (1 : Fin 2) * 64 + 1 * (j 1).val; omega
  refine (block_at _ _ _ _).trans ?_
  exact sample_of_eq (V c main_v61) (V c main_v66) (V c main_arg8) h0 h1 h2

/-- An index of the array is in point `t`'s block iff each coordinate is in the block's range on its axis. -/
theorem mem_block (t : Fin cfg3.N) (i : S100000x64.Idx) :
    i ∈ ((cfg3.win 3).blk t).view.set ↔ ∀ a : Fin 2, win3_3.index t a * S2000x64.size a ≤ (i a).val
      ∧ (i a).val < win3_3.index t a * S2000x64.size a + S2000x64.size a := by
  show i ∈ ((View.whole main_v67).slice (win3_3.rect t)).set ↔ _
  rw [View.set_slice_whole, Rect.mem_set_unit]
  exact Iff.rfl

/-- The grid has 50 points. -/
theorem grid_points : grid3.N = 50 := by decide

/-- Every node's row lies in some point's block: row `r` in that of point `r / 2000`. -/
theorem covered (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 2000 :=
    ⟨⟨(i 0).val / 2000, by show _ < grid3.N; rw [grid_points]; omega⟩, rfl⟩
  obtain ⟨-, -, -, -, -, -, e6, e7⟩ := block_index_facts t
  refine ⟨t, flush3_3 t, ?_⟩
  rw [mem_block]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 64 ≤ (i 1).val ∧ (i 1).val < win3_3.index t (1 : Fin 2) * 64 + 64
    omega

/-- The array the last region leaves is `noise · √var + miu` of its three input arrays as the region finds them. -/
theorem final (c : Dev nD) :
    (dat3 (F := Ideal) V c).arrAt 3 cfg3.N = Cert.Spec.comb (V c main_v61) (V c main_v66) (V c main_arg8) :=
  (dat3 (F := Ideal) V c).arrAt_eq_of_cover 3 (Cert.Spec.comb (V c main_v61) (V c main_v66) (V c main_arg8))
    (fun t _ => flushed_eq V c t) covered

end Cert.KernelIdeal.CombineValue

end
-- ==== Proof.XwRef.lean ====
/-
  The reference's dense projection, one host contraction over the 256 input features, is `X · W` entry by entry.
-/
import proofs.«169134_j56556129354623_1_alg».proof.Proof.Gen.ReferenceIdeal.Read
import proofs.«169134_j56556129354623_1_alg».proof.Proof.Spec
import proofs.«169134_j56556129354623_1_alg».proof.Proof.Laws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.XwRef

open Cert.ReferenceIdeal Cert.ReferenceIdeal.Gen Cert.ReferenceIdeal.Read
open Idealize.ShloMosaic Idealize.ShloMosaic.TcCoe Idealize.ShloMosaic.ValueIdx Idealize.ShloMosaic.StableHlo

/-- The left operand of the contraction is read at row `r`, feature `k`. -/
theorem lidx_v0 (r : Fin 100000) (c : Fin 128) (k : Fin 256) : lidx_main_v0 (ix2 r c) k = ix2 r k :=
  funext fun a => Fin.ext (by match a with | ⟨0, _⟩ => rfl | ⟨1, _⟩ => rfl)

/-- The right operand of the contraction is read at feature `k`, column `c`. -/
theorem ridx_v0 (r : Fin 100000) (c : Fin 128) (k : Fin 256) : ridx_main_v0 (ix2 r c) k = ix2 k c :=
  funext fun a => Fin.ext (by match a with | ⟨0, _⟩ => rfl | ⟨1, _⟩ => rfl)

/-- The reference's first stage is the dense projection. -/
theorem xw_ref (x0 : (⟨S100000x256, .f32⟩ : BufTy).Contents (Elt Ideal)) (x1 : (⟨S256x128, .f32⟩ : BufTy).Contents (Elt Ideal)) :
    val_main_v0 (F := Ideal) x0 x1 = Cert.Spec.xw x0 x1 := by
  funext i
  obtain ⟨r, c, rfl⟩ : ∃ (r : Fin 100000) (c : Fin 128), i = ix2 r c := ⟨i 0, i 1, eq_ix2 i⟩
  rw [val_main_v0_apply]
  unfold Cert.Spec.xw Cert.Spec.xwAt
  refine Finset.sum_congr rfl fun k _ => ?_
  rw [lidx_v0 r c k, ridx_v0 r c k]

end Cert.ReferenceIdeal.XwRef

end
-- ==== Proof.EdgeRef.lean ====
/-
  The reference's directed-edge samples. It slices each weight into its top and bottom 128 rows and adds the two
  products, `h_a · W_top + h_b · W_bot`; entry by entry that is the split projection of the pair `[h_a | h_b]`, and the
  sample is `noise · exp (logstd) + miu`.
-/
import proofs.«169134_j56556129354623_1_alg».proof.Proof.Gen.ReferenceIdeal.Read
import proofs.«169134_j56556129354623_1_alg».proof.Proof.Spec
import proofs.«169134_j56556129354623_1_alg».proof.Proof.Laws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.EdgeRef

open Cert.ReferenceIdeal Cert.ReferenceIdeal.Gen Cert.ReferenceIdeal.Read
open Idealize.ShloMosaic Idealize.ShloMosaic.TcCoe Idealize.ShloMosaic.ValueIdx Idealize.ShloMosaic.StableHlo

/-! ### Where the contractions and the row slices read their operands

Every contraction here pairs row `r` of a gathered hidden-row array with column `c` of a 128-row slice of a weight, along
the 128 hidden features `k`; a top slice reads the weight at row `k`, a bottom slice at row `128 + k`. -/

theorem lidx_v40 (r : Fin 500000) (c : Fin 64) (k : Fin 128) : lidx_main_v40 (ix2 r c) k = ix2 r k := funext fun a => Fin.ext (by match a with | ⟨0, _⟩ => rfl | ⟨1, _⟩ => rfl)
theorem ridx_v40 (r : Fin 500000) (c : Fin 64) (k : Fin 128) : ridx_main_v40 (ix2 r c) k = ix2 k c := funext fun a => Fin.ext (by match a with | ⟨0, _⟩ => rfl | ⟨1, _⟩ => rfl)
theorem lidx_v41 (r : Fin 500000) (c : Fin 64) (k : Fin 128) : lidx_main_v41 (ix2 r c) k = ix2 r k := funext fun a => Fin.ext (by match a with | ⟨0, _⟩ => rfl | ⟨1, _⟩ => rfl)
theorem ridx_v41 (r : Fin 500000) (c : Fin 64) (k : Fin 128) : ridx_main_v41 (ix2 r c) k = ix2 k c := funext fun a => Fin.ext (by match a with | ⟨0, _⟩ => rfl | ⟨1, _⟩ => rfl)
theorem lidx_v43 (r : Fin 500000) (c : Fin 64) (k : Fin 128) : lidx_main_v43 (ix2 r c) k = ix2 r k := funext fun a => Fin.ext (by match a with | ⟨0, _⟩ => rfl | ⟨1, _⟩ => rfl)
theorem ridx_v43 (r : Fin 500000) (c : Fin 64) (k : Fin 128) : ridx_main_v43 (ix2 r c) k = ix2 k c := funext fun a => Fin.ext (by match a with | ⟨0, _⟩ => rfl | ⟨1, _⟩ => rfl)
theorem lidx_v44 (r : Fin 500000) (c : Fin 64) (k : Fin 128) : lidx_main_v44 (ix2 r c) k = ix2 r k := funext fun a => Fin.ext (by match a with | ⟨0, _⟩ => rfl | ⟨1, _⟩ => rfl)
theorem ridx_v44 (r : Fin 500000) (c : Fin 64) (k : Fin 128) : ridx_main_v44 (ix2 r c) k = ix2 k c := funext fun a => Fin.ext (by match a with | ⟨0, _⟩ => rfl | ⟨1, _⟩ => rfl)
theorem lidx_v46 (r : Fin 500000) (c : Fin 64) (k : Fin 128) : lidx_main_v46 (ix2 r c) k = ix2 r k := funext fun a => Fin.ext (by match a with | ⟨0, _⟩ => rfl | ⟨1, _⟩ => rfl)
theorem ridx_v46 (r : Fin 500000) (c : Fin 64) (k : Fin 128) : ridx_main_v46 (ix2 r c) k = ix2 k c := funext fun a => Fin.ext (by match a with | ⟨0, _⟩ => rfl | ⟨1, _⟩ => rfl)
theorem lidx_v47 (r : Fin 500000) (c : Fin 64) (k : Fin 128) : lidx_main_v47 (ix2 r c) k = ix2 r k := funext fun a => Fin.ext (by match a with | ⟨0, _⟩ => rfl | ⟨1, _⟩ => rfl)
theorem ridx_v47 (r : Fin 500000) (c : Fin 64) (k : Fin 128) : ridx_main_v47 (ix2 r c) k = ix2 k c := funext fun a => Fin.ext (by match a with | ⟨0, _⟩ => rfl | ⟨1, _⟩ => rfl)
theorem lidx_v49 (r : Fin 500000) (c : Fin 64) (k : Fin 128) : lidx_main_v49 (ix2 r c) k = ix2 r k := funext fun a => Fin.ext (by match a with | ⟨0, _⟩ => rfl | ⟨1, _⟩ => rfl)
theorem ridx_v49 (r : Fin 500000) (c : Fin 64) (k : Fin 128) : ridx_main_v49 (ix2 r c) k = ix2 k c := funext fun a => Fin.ext (by match a with | ⟨0, _⟩ => rfl | ⟨1, _⟩ => rfl)
theorem lidx_v50 (r : Fin 500000) (c : Fin 64) (k : Fin 128) : lidx_main_v50 (ix2 r c) k = ix2 r k := funext fun a => Fin.ext (by match a with | ⟨0, _⟩ => rfl | ⟨1, _⟩ => rfl)
theorem ridx_v50 (r : Fin 500000) (c : Fin 64) (k : Fin 128) : ridx_main_v50 (ix2 r c) k = ix2 k c := funext fun a => Fin.ext (by match a with | ⟨0, _⟩ => rfl | ⟨1, _⟩ => rfl)

theorem idx_v18 (k : Fin 128) (c : Fin 64) : idx_main_v18 (ix2 k c) = ix2 (⟨k.val, by omega⟩ : Fin 256) c := funext fun a => Fin.ext (by match a with | ⟨0, _⟩ => rfl | ⟨1, _⟩ => rfl)
theorem idx_v19 (k : Fin 128) (c : Fin 64) : idx_main_v19 (ix2 k c) = ix2 (⟨128 + k.val, by omega⟩ : Fin 256) c := funext fun a => Fin.ext (by match a with | ⟨0, _⟩ => rfl | ⟨1, _⟩ => rfl)
theorem idx_v20 (k : Fin 128) (c : Fin 64) : idx_main_v20 (ix2 k c) = ix2 (⟨k.val, by omega⟩ : Fin 256) c := funext fun a => Fin.ext (by match a with | ⟨0, _⟩ => rfl | ⟨1, _⟩ => rfl)
theorem idx_v21 (k : Fin 128) (c : Fin 64) : idx_main_v21 (ix2 k c) = ix2 (⟨128 + k.val, by omega⟩ : Fin 256) c := funext fun a => Fin.ext (by match a with | ⟨0, _⟩ => rfl | ⟨1, _⟩ => rfl)

/-! ### The eight products, entry by entry

Each is a hidden-row array against the top or the bottom half of a weight. -/

section Products
variable (x0 : (⟨S100000x256, .f32⟩ : BufTy).Contents (Elt Ideal)) (x1 : (⟨S256x128, .f32⟩ : BufTy).Contents (Elt Ideal))
  (x2 x3 : (⟨S256x64, .f32⟩ : BufTy).Contents (Elt Ideal)) (x4 : (⟨S1600000, .f32⟩ : BufTy).Contents (Elt Ideal))
  (x9 : (⟨S2x1600000, .i32⟩ : BufTy).Contents (Elt Ideal)) (x10 : (⟨S2x500000, .i32⟩ : BufTy).Contents (Elt Ideal))
  (r : Fin 500000) (c : Fin 64)

theorem v40_at : val_main_v40 (F := Ideal) x0 x1 x2 x4 x9 x10 (ix2 r c)
    = ∑ k : Fin 128, val_main_v30 (F := Ideal) x0 x1 x4 x9 x10 (ix2 r k) * x2 (ix2 (⟨k.val, by omega⟩ : Fin 256) c) := by
  rw [val_main_v40_apply]
  refine Finset.sum_congr rfl fun k _ => ?_
  rw [lidx_v40 r c k, ridx_v40 r c k, val_main_v18_apply, idx_v18 k c]

theorem v41_at : val_main_v41 (F := Ideal) x0 x1 x2 x4 x9 x10 (ix2 r c)
    = ∑ k : Fin 128, val_main_v39 (F := Ideal) x0 x1 x4 x9 x10 (ix2 r k) * x2 (ix2 (⟨128 + k.val, by omega⟩ : Fin 256) c) := by
  rw [val_main_v41_apply]
  refine Finset.sum_congr rfl fun k _ => ?_
  rw [lidx_v41 r c k, ridx_v41 r c k, val_main_v19_apply, idx_v19 k c]

theorem v43_at : val_main_v43 (F := Ideal) x0 x1 x2 x4 x9 x10 (ix2 r c)
    = ∑ k : Fin 128, val_main_v39 (F := Ideal) x0 x1 x4 x9 x10 (ix2 r k) * x2 (ix2 (⟨k.val, by omega⟩ : Fin 256) c) := by
  rw [val_main_v43_apply]
  refine Finset.sum_congr rfl fun k _ => ?_
  rw [lidx_v43 r c k, ridx_v43 r c k, val_main_v18_apply, idx_v18 k c]

theorem v44_at : val_main_v44 (F := Ideal) x0 x1 x2 x4 x9 x10 (ix2 r c)
    = ∑ k : Fin 128, val_main_v30 (F := Ideal) x0 x1 x4 x9 x10 (ix2 r k) * x2 (ix2 (⟨128 + k.val, by omega⟩ : Fin 256) c) := by
  rw [val_main_v44_apply]
  refine Finset.sum_congr rfl fun k _ => ?_
  rw [lidx_v44 r c k, ridx_v44 r c k, val_main_v19_apply, idx_v19 k c]

theorem v46_at : val_main_v46 (F := Ideal) x0 x1 x3 x4 x9 x10 (ix2 r c)
    = ∑ k : Fin 128, val_main_v30 (F := Ideal) x0 x1 x4 x9 x10 (ix2 r k) * x3 (ix2 (⟨k.val, by omega⟩ : Fin 256) c) := by
  rw [val_main_v46_apply]
  refine Finset.sum_congr rfl fun k _ => ?_
  rw [lidx_v46 r c k, ridx_v46 r c k, val_main_v20_apply, idx_v20 k c]

theorem v47_at : val_main_v47 (F := Ideal) x0 x1 x3 x4 x9 x10 (ix2 r c)
    = ∑ k : Fin 128, val_main_v39 (F := Ideal) x0 x1 x4 x9 x10 (ix2 r k) * x3 (ix2 (⟨128 + k.val, by omega⟩ : Fin 256) c) := by
  rw [val_main_v47_apply]
  refine Finset.sum_congr rfl fun k _ => ?_
  rw [lidx_v47 r c k, ridx_v47 r c k, val_main_v21_apply, idx_v21 k c]

theorem v49_at : val_main_v49 (F := Ideal) x0 x1 x3 x4 x9 x10 (ix2 r c)
    = ∑ k : Fin 128, val_main_v39 (F := Ideal) x0 x1 x4 x9 x10 (ix2 r k) * x3 (ix2 (⟨k.val, by omega⟩ : Fin 256) c) := by
  rw [val_main_v49_apply]
  refine Finset.sum_congr rfl fun k _ => ?_
  rw [lidx_v49 r c k, ridx_v49 r c k, val_main_v20_apply, idx_v20 k c]

theorem v50_at : val_main_v50 (F := Ideal) x0 x1 x3 x4 x9 x10 (ix2 r c)
    = ∑ k : Fin 128, val_main_v30 (F := Ideal) x0 x1 x4 x9 x10 (ix2 r k) * x3 (ix2 (⟨128 + k.val, by omega⟩ : Fin 256) c) := by
  rw [val_main_v50_apply]
  refine Finset.sum_congr rfl fun k _ => ?_
  rw [lidx_v50 r c k, ridx_v50 r c k, val_main_v21_apply, idx_v21 k c]

end Products

/-- The incoming samples, over the two gathered hidden-row stages. -/
theorem edge_in_ref (x0 : (⟨S100000x256, .f32⟩ : BufTy).Contents (Elt Ideal)) (x1 : (⟨S256x128, .f32⟩ : BufTy).Contents (Elt Ideal)) (x2 : (⟨S256x64, .f32⟩ : BufTy).Contents (Elt Ideal)) (x3 : (⟨S256x64, .f32⟩ : BufTy).Contents (Elt Ideal)) (x4 : (⟨S1600000, .f32⟩ : BufTy).Contents (Elt Ideal)) (x6 : (⟨S500000x64, .f32⟩ : BufTy).Contents (Elt Ideal)) (x9 : (⟨S2x1600000, .i32⟩ : BufTy).Contents (Elt Ideal)) (x10 : (⟨S2x500000, .i32⟩ : BufTy).Contents (Elt Ideal)) :
    val_main_v54 (F := Ideal) x0 x1 x2 x3 x4 x6 x9 x10
      = Cert.Spec.edge (val_main_v30 (F := Ideal) x0 x1 x4 x9 x10) (val_main_v39 (F := Ideal) x0 x1 x4 x9 x10) x2 x3 x6 := by
  funext i
  obtain ⟨r, c, rfl⟩ : ∃ (r : Fin 500000) (c : Fin 64), i = ix2 r c := ⟨i 0, i 1, eq_ix2 i⟩
  rw [val_main_v54_apply, val_main_v53_apply, val_main_v52_apply, val_main_v48_apply, val_main_v42_apply,
    v46_at, v47_at, v40_at, v41_at]
  unfold Cert.Spec.edge Cert.Spec.edgeAt Cert.Spec.projAt
  simp only [Ideal.addf_def, Ideal.mulf_def, Ideal.hostUnary_exp_def]

/-- The outgoing samples: the two hidden-row stages exchanged. -/
theorem edge_out_ref (x0 : (⟨S100000x256, .f32⟩ : BufTy).Contents (Elt Ideal)) (x1 : (⟨S256x128, .f32⟩ : BufTy).Contents (Elt Ideal)) (x2 : (⟨S256x64, .f32⟩ : BufTy).Contents (Elt Ideal)) (x3 : (⟨S256x64, .f32⟩ : BufTy).Contents (Elt Ideal)) (x4 : (⟨S1600000, .f32⟩ : BufTy).Contents (Elt Ideal)) (x7 : (⟨S500000x64, .f32⟩ : BufTy).Contents (Elt Ideal)) (x9 : (⟨S2x1600000, .i32⟩ : BufTy).Contents (Elt Ideal)) (x10 : (⟨S2x500000, .i32⟩ : BufTy).Contents (Elt Ideal)) :
    val_main_v57 (F := Ideal) x0 x1 x2 x3 x4 x7 x9 x10
      = Cert.Spec.edge (val_main_v39 (F := Ideal) x0 x1 x4 x9 x10) (val_main_v30 (F := Ideal) x0 x1 x4 x9 x10) x2 x3 x7 := by
  funext i
  obtain ⟨r, c, rfl⟩ : ∃ (r : Fin 500000) (c : Fin 64), i = ix2 r c := ⟨i 0, i 1, eq_ix2 i⟩
  rw [val_main_v57_apply, val_main_v56_apply, val_main_v55_apply, val_main_v51_apply, val_main_v45_apply,
    v49_at, v50_at, v43_at, v44_at]
  unfold Cert.Spec.edge Cert.Spec.edgeAt Cert.Spec.projAt
  simp only [Ideal.addf_def, Ideal.mulf_def, Ideal.hostUnary_exp_def]

end Cert.ReferenceIdeal.EdgeRef

end
-- ==== Proof.NodePrepRef.lean ====
/-
  The reference's weighted terms of the bidirectional edges: the edge value broadcast along the 64 outputs times the
  split projection (the mean term), and the squared edge value broadcast times the exponential of the split projection
  (the variance term). The one-column stage of the edge values reads the value of its row.
-/
import proofs.«169134_j56556129354623_1_alg».proof.Proof.Gen.ReferenceIdeal.Read
import proofs.«169134_j56556129354623_1_alg».proof.Proof.Spec
import proofs.«169134_j56556129354623_1_alg».proof.Proof.Laws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.NodePrepRef

open Cert.ReferenceIdeal Cert.ReferenceIdeal.Gen Cert.ReferenceIdeal.Read
open Idealize.ShloMosaic Idealize.ShloMosaic.TcCoe Idealize.ShloMosaic.ValueIdx Idealize.ShloMosaic.StableHlo

/-- At row `r` the left factor of each 128-term contraction is read at row `r`, column `k`. -/
theorem lidx76 (r : Fin 1000000) (c : Fin 64) (k : Fin 128) : lidx_main_v76 (ix2 r c) k = ix2 r k := by
  funext a; match a with | ⟨0, _⟩ => rfl | ⟨1, _⟩ => rfl
theorem lidx77 (r : Fin 1000000) (c : Fin 64) (k : Fin 128) : lidx_main_v77 (ix2 r c) k = ix2 r k := by
  funext a; match a with | ⟨0, _⟩ => rfl | ⟨1, _⟩ => rfl
theorem lidx79 (r : Fin 1000000) (c : Fin 64) (k : Fin 128) : lidx_main_v79 (ix2 r c) k = ix2 r k := by
  funext a; match a with | ⟨0, _⟩ => rfl | ⟨1, _⟩ => rfl
theorem lidx80 (r : Fin 1000000) (c : Fin 64) (k : Fin 128) : lidx_main_v80 (ix2 r c) k = ix2 r k := by
  funext a; match a with | ⟨0, _⟩ => rfl | ⟨1, _⟩ => rfl

/-- Row `k`, column `c` of the top half of a 256-row weight is row `k`, column `c` of the weight. -/
theorem top18 (r : Fin 1000000) (c : Fin 64) (k : Fin 128) :
    idx_main_v18 (ridx_main_v76 (ix2 r c) k) = ix2 (⟨k.val, by omega⟩ : Fin 256) c := by
  funext a; match a with | ⟨0, _⟩ => rfl | ⟨1, _⟩ => rfl
theorem top20 (r : Fin 1000000) (c : Fin 64) (k : Fin 128) :
    idx_main_v20 (ridx_main_v79 (ix2 r c) k) = ix2 (⟨k.val, by omega⟩ : Fin 256) c := by
  funext a; match a with | ⟨0, _⟩ => rfl | ⟨1, _⟩ => rfl
/-- Row `k`, column `c` of the bottom half of a 256-row weight is row `128 + k`, column `c` of the weight. -/
theorem bot19 (r : Fin 1000000) (c : Fin 64) (k : Fin 128) :
    idx_main_v19 (ridx_main_v77 (ix2 r c) k) = ix2 (⟨128 + k.val, by omega⟩ : Fin 256) c := by
  funext a; match a with | ⟨0, _⟩ => rfl | ⟨1, _⟩ => rfl
theorem bot21 (r : Fin 1000000) (c : Fin 64) (k : Fin 128) :
    idx_main_v21 (ridx_main_v80 (ix2 r c) k) = ix2 (⟨128 + k.val, by omega⟩ : Fin 256) c := by
  funext a; match a with | ⟨0, _⟩ => rfl | ⟨1, _⟩ => rfl

/-- A one-column array broadcast along the 64 outputs is read, at row `r` and any column, at row `r`, column `0`. -/
theorem col83 (r : Fin 1000000) (c : Fin 64) : idx_main_v83 (ix2 r c) = ix2 r (0 : Fin 1) := by
  funext a; match a with | ⟨0, _⟩ => rfl | ⟨1, _⟩ => rfl
theorem col93 (r : Fin 1000000) (c : Fin 64) : idx_main_v93 (ix2 r c) = ix2 r (0 : Fin 1) := by
  funext a; match a with | ⟨0, _⟩ => rfl | ⟨1, _⟩ => rfl
/-- A flat array written as one column is read, at row `r`, at its entry `r`. -/
theorem flat82 (r : Fin 1000000) : idx_main_v82 (ix2 r (0 : Fin 1)) = ix1 r := by
  funext a; match a with | ⟨0, _⟩ => rfl
theorem flat91 (r : Fin 1000000) : idx_main_v91 (ix2 r (0 : Fin 1)) = ix1 r := by
  funext a; match a with | ⟨0, _⟩ => rfl

/-- The weighted mean terms. -/
theorem wmiu_ref (x0 : (⟨S100000x256, .f32⟩ : BufTy).Contents (Elt Ideal)) (x1 : (⟨S256x128, .f32⟩ : BufTy).Contents (Elt Ideal)) (x2 : (⟨S256x64, .f32⟩ : BufTy).Contents (Elt Ideal)) (x4 : (⟨S1600000, .f32⟩ : BufTy).Contents (Elt Ideal)) (x5 : (⟨S1000000, .f32⟩ : BufTy).Contents (Elt Ideal)) (x9 : (⟨S2x1600000, .i32⟩ : BufTy).Contents (Elt Ideal)) (x11 : (⟨S2x1000000, .i32⟩ : BufTy).Contents (Elt Ideal)) :
    val_main_v84 (F := Ideal) x0 x1 x2 x4 x5 x9 x11
      = Cert.Spec.wmiu (val_main_v66 (F := Ideal) x0 x1 x4 x9 x11) (val_main_v75 (F := Ideal) x0 x1 x4 x9 x11) x2 (val_main_v82 (F := Ideal) x5) := by
  funext i
  obtain ⟨r, c, rfl⟩ : ∃ (r : Fin 1000000) (c : Fin 64), i = ix2 r c := ⟨i 0, i 1, eq_ix2 i⟩
  -- the product of the broadcast edge value and the sum of the two half projections, entry by entry
  rw [val_main_v84_apply, val_main_v83_apply, val_main_v78_apply, val_main_v76_apply, val_main_v77_apply, col83]
  -- each half of the weight read in the whole weight: rows `k` and `128 + k`
  simp only [val_main_v18_apply, val_main_v19_apply, lidx76, lidx77, top18, bot19, Ideal.addf_def, Ideal.mulf_def]
  rfl

/-- The weighted variance terms. -/
theorem wvar_ref (x0 : (⟨S100000x256, .f32⟩ : BufTy).Contents (Elt Ideal)) (x1 : (⟨S256x128, .f32⟩ : BufTy).Contents (Elt Ideal)) (x3 : (⟨S256x64, .f32⟩ : BufTy).Contents (Elt Ideal)) (x4 : (⟨S1600000, .f32⟩ : BufTy).Contents (Elt Ideal)) (x5 : (⟨S1000000, .f32⟩ : BufTy).Contents (Elt Ideal)) (x9 : (⟨S2x1600000, .i32⟩ : BufTy).Contents (Elt Ideal)) (x11 : (⟨S2x1000000, .i32⟩ : BufTy).Contents (Elt Ideal)) :
    val_main_v94 (F := Ideal) x0 x1 x3 x4 x5 x9 x11
      = Cert.Spec.wvar (val_main_v66 (F := Ideal) x0 x1 x4 x9 x11) (val_main_v75 (F := Ideal) x0 x1 x4 x9 x11) x3 (val_main_v82 (F := Ideal) x5) := by
  funext i
  obtain ⟨r, c, rfl⟩ : ∃ (r : Fin 1000000) (c : Fin 64), i = ix2 r c := ⟨i 0, i 1, eq_ix2 i⟩
  -- the broadcast square of the edge value times the exponential of the sum of the two half projections
  rw [val_main_v94_apply, val_main_v93_apply, val_main_v91_apply, val_main_v90_apply, val_main_v92_apply,
    val_main_v81_apply, val_main_v79_apply, val_main_v80_apply, col93, flat91]
  simp only [val_main_v20_apply, val_main_v21_apply, lidx79, lidx80, top20, bot21, Ideal.addf_def, Ideal.mulf_def,
    Ideal.hostUnary_exp_def]
  -- the specification reads the edge value in the one-column array, whose row `r` is the flat array's entry `r`
  unfold Cert.Spec.wvar Cert.Spec.wvarAt Cert.Spec.projAt
  rw [val_main_v82_apply, flat82]

end Cert.ReferenceIdeal.NodePrepRef

end
-- ==== Proof.CombineRef.lean ====
/-
  The reference's node samples, `noise · exp (½ · log var) + miu`. The aggregated variance is a sum, onto zero, of
  squares times exponentials, so it is never negative, and on `0 ≤ var` the exponential of half the logarithm is the
  square root.
-/
import proofs.«169134_j56556129354623_1_alg».proof.Proof.Gen.ReferenceIdeal.Read
import proofs.«169134_j56556129354623_1_alg».proof.Proof.Spec
import proofs.«169134_j56556129354623_1_alg».proof.Proof.Laws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.CombineRef

open Cert.ReferenceIdeal Cert.ReferenceIdeal.Gen Cert.ReferenceIdeal.Read
open Idealize.ShloMosaic Idealize.ShloMosaic.TcCoe Idealize.ShloMosaic.ValueIdx Idealize.ShloMosaic.StableHlo

/-- A weighted variance term is a square times an exponential, so it is never negative. -/
theorem wvar_term_nonneg (x0 : (⟨S100000x256, .f32⟩ : BufTy).Contents (Elt Ideal)) (x1 : (⟨S256x128, .f32⟩ : BufTy).Contents (Elt Ideal)) (x3 : (⟨S256x64, .f32⟩ : BufTy).Contents (Elt Ideal)) (x4 : (⟨S1600000, .f32⟩ : BufTy).Contents (Elt Ideal)) (x5 : (⟨S1000000, .f32⟩ : BufTy).Contents (Elt Ideal)) (x9 : (⟨S2x1600000, .i32⟩ : BufTy).Contents (Elt Ideal)) (x11 : (⟨S2x1000000, .i32⟩ : BufTy).Contents (Elt Ideal)) (j : S1000000x64.Idx) :
    (0 : EReal) ≤ val_main_v94 (F := Ideal) x0 x1 x3 x4 x5 x9 x11 j := by
  rw [val_main_v94_apply, val_main_v93_apply, val_main_v91_apply, val_main_v90_apply, val_main_v92_apply]
  simp only [Ideal.mulf_def, Ideal.hostUnary_exp_def]
  exact Cert.Laws.sq_mul_exp_nonneg _ _

/-- Non-negative updates added onto an entry that is zero give a non-negative entry: the entry is zero plus the sum
    of the updates that land on it. Stated over arbitrary shapes. -/
theorem scatterAdd_nonneg {s si su : Shape} (d : ScatterDims s si su) {w : Nat} (x : FVec Ideal s .f32) (idx : IVec si w)
    (upd : FVec Ideal su .f32) (i : s.Idx) (hx : x i = (0 : EReal)) (hu : ∀ j, (0 : EReal) ≤ upd j) :
    (0 : EReal) ≤ Host.scatterAdd (F := Ideal) d x idx upd i := by
  unfold Host.scatterAdd
  rewrite [Ideal.hostScatterAdd_def]
  unfold Ideal.hostScatterAdd
  rewrite [hx]
  exact Cert.Laws.zero_add_sum_nonneg _ _ (fun j _ => hu j)

/-- The array the variance is aggregated onto is zero everywhere. -/
theorem zeros_apply (i : S100000x64.Idx) : val_main_v97 (F := Ideal) i = (0 : EReal) := by
  rw [val_main_v97_apply, val_main_cst_10_apply, Ideal.ofBits_def, Ideal.ofBits_zero_f32]

/-- The aggregated variance is zero plus a sum of weighted variance terms, so it is never negative. -/
theorem var_nonneg (x0 : (⟨S100000x256, .f32⟩ : BufTy).Contents (Elt Ideal)) (x1 : (⟨S256x128, .f32⟩ : BufTy).Contents (Elt Ideal)) (x3 : (⟨S256x64, .f32⟩ : BufTy).Contents (Elt Ideal)) (x4 : (⟨S1600000, .f32⟩ : BufTy).Contents (Elt Ideal)) (x5 : (⟨S1000000, .f32⟩ : BufTy).Contents (Elt Ideal)) (x9 : (⟨S2x1600000, .i32⟩ : BufTy).Contents (Elt Ideal)) (x11 : (⟨S2x1000000, .i32⟩ : BufTy).Contents (Elt Ideal)) (i : S100000x64.Idx) :
    (0 : EReal) ≤ val_main_v99 (F := Ideal) x0 x1 x3 x4 x5 x9 x11 i := by
  unfold val_main_v99
  exact scatterAdd_nonneg _ _ _ _ i (zeros_apply i) (wvar_term_nonneg x0 x1 x3 x4 x5 x9 x11)

/-- The node samples are `noise · √var + miu` of the two aggregated stages. -/
theorem comb_ref (x0 : (⟨S100000x256, .f32⟩ : BufTy).Contents (Elt Ideal)) (x1 : (⟨S256x128, .f32⟩ : BufTy).Contents (Elt Ideal)) (x2 : (⟨S256x64, .f32⟩ : BufTy).Contents (Elt Ideal)) (x3 : (⟨S256x64, .f32⟩ : BufTy).Contents (Elt Ideal)) (x4 : (⟨S1600000, .f32⟩ : BufTy).Contents (Elt Ideal)) (x5 : (⟨S1000000, .f32⟩ : BufTy).Contents (Elt Ideal)) (x8 : (⟨S100000x64, .f32⟩ : BufTy).Contents (Elt Ideal)) (x9 : (⟨S2x1600000, .i32⟩ : BufTy).Contents (Elt Ideal)) (x11 : (⟨S2x1000000, .i32⟩ : BufTy).Contents (Elt Ideal)) :
    val_main_v105 (F := Ideal) x0 x1 x2 x3 x4 x5 x8 x9 x11
      = Cert.Spec.comb (val_main_v89 (F := Ideal) x0 x1 x2 x4 x5 x9 x11) (val_main_v99 (F := Ideal) x0 x1 x3 x4 x5 x9 x11) x8 := by
  funext i
  -- the reference, entry by entry: `noise · exp (½ · log var) + miu`
  rw [val_main_v105_apply, val_main_v104_apply, val_main_v103_apply, val_main_v102_apply, val_main_v101_apply,
    val_main_cst_11_apply, val_main_v100_apply]
  simp only [Ideal.addf_def, Ideal.mulf_def, Ideal.hostUnary_exp_def, Ideal.hostUnary_log_def, Ideal.ofBits_def]
  -- on `0 ≤ var` the square root is the exponential of half the logarithm
  unfold Cert.Spec.comb
  rw [Cert.Laws.sqrt_eq_exp_half_log _ (var_nonneg x0 x1 x3 x4 x5 x9 x11 i)]

end Cert.ReferenceIdeal.CombineRef

end
-- ==== Proof.HostFold.lean ====
/-
  The idealized kernel program's three results as the reference's stages of the arguments.

  The program is four regions among three stretches of host operations, and the reference applies the same host
  operations (the same gathers, scatter-adds, slices and broadcasts) to its own intermediate arrays. So the fold through
  the seven segment boundaries is read back one boundary at a time: a region's output array is its specification of the
  region's input arrays, which is the reference's stage by that stage's reading; a host stretch's result is the same
  operations applied to equal operands; a buffer that a segment does not write is carried across it unchanged.
-/
import proofs.«169134_j56556129354623_1_alg».proof.Proof.KernelRun
import proofs.«169134_j56556129354623_1_alg».proof.Proof.XwValue
import proofs.«169134_j56556129354623_1_alg».proof.Proof.EdgeValue
import proofs.«169134_j56556129354623_1_alg».proof.Proof.NodePrepValue
import proofs.«169134_j56556129354623_1_alg».proof.Proof.CombineValue
import proofs.«169134_j56556129354623_1_alg».proof.Proof.XwRef
import proofs.«169134_j56556129354623_1_alg».proof.Proof.EdgeRef
import proofs.«169134_j56556129354623_1_alg».proof.Proof.NodePrepRef
import proofs.«169134_j56556129354623_1_alg».proof.Proof.CombineRef
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- An argument array as launched. -/
abbrev arg (c : Dev nD) (b : Ref sig .tc) : Buf (Elt Ideal) ((c : Thread nD τ).loc b) := m ((c : Thread nD τ).loc b)

/-- A buffer that no operation of a host stretch writes keeps its contents: each operation's written buffer is
    another reference. -/
local macro "keeps_through " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first region: the dense projection -/

/-- The first region's output is the reference's dense projection of the first two arguments. -/
theorem xw_eq (c : Dev nD) :
    W1 m ρ c (Proc.devRef .tc main_v0) = Cert.ReferenceIdeal.Read.val_main_v0 (F := Ideal) (arg m c main_arg0) (arg m c main_arg1) :=
  (W1_arr m ρ c 2).trans ((Cert.KernelIdeal.XwValue.final (V0 m ρ) c).trans (Cert.ReferenceIdeal.XwRef.xw_ref _ _).symm)

/-- A buffer that is none of the first region's arrays is as launched after it. -/
theorem W1_keep (c : Dev nD) (b : Ref sig .tc) (hb : ∀ w, Pipeline.arrRef spec0 w ≠ b) :
    W1 m ρ c (Proc.devRef .tc b) = arg m c b := W1_of_ne m ρ c b hb

/-! ## After the first host stretch: the aggregated hidden rows and the directed edges' two gathers -/

/-- The aggregated hidden rows are the reference's. -/
theorem hidden_eq (c : Dev nD) :
    W2 m ρ c (Proc.devRef .tc main_v17) = Cert.ReferenceIdeal.Read.val_main_v17 (F := Ideal) (arg m c main_arg0) (arg m c main_arg1) (arg m c main_arg4) (arg m c main_arg9) := by
  show StableHlo.after hostOps1 (W1 m ρ c) (Proc.devRef .tc main_v17) = _
  after_results_simp
  rw [xw_eq m ρ c, W1_keep m ρ c main_arg4 (by decide), W1_keep m ρ c main_arg9 (by decide)]
  rfl

/-- The source ends' hidden rows of the directed edges are the reference's. -/
theorem hsrc_eq (c : Dev nD) :
    V2 m ρ c main_v26 = Cert.ReferenceIdeal.Read.val_main_v30 (F := Ideal) (arg m c main_arg0) (arg m c main_arg1) (arg m c main_arg4) (arg m c main_arg9) (arg m c main_arg10) := by
  show StableHlo.after hostOps1 (W1 m ρ c) (Proc.devRef .tc main_v26) = _
  after_results_simp
  rw [xw_eq m ρ c, W1_keep m ρ c main_arg4 (by decide), W1_keep m ρ c main_arg9 (by decide),
    W1_keep m ρ c main_arg10 (by decide)]
  rfl

/-- The destination ends' hidden rows of the directed edges are the reference's. -/
theorem hdst_eq (c : Dev nD) :
    V2 m ρ c main_v35 = Cert.ReferenceIdeal.Read.val_main_v39 (F := Ideal) (arg m c main_arg0) (arg m c main_arg1) (arg m c main_arg4) (arg m c main_arg9) (arg m c main_arg10) := by
  show StableHlo.after hostOps1 (W1 m ρ c) (Proc.devRef .tc main_v35) = _
  after_results_simp
  rw [xw_eq m ρ c, W1_keep m ρ c main_arg4 (by decide), W1_keep m ρ c main_arg9 (by decide),
    W1_keep m ρ c main_arg10 (by decide)]
  rfl

/-- The arguments the later segments read are as launched after the first stretch. -/
theorem W2_arg2 (c : Dev nD) : W2 m ρ c (Proc.devRef .tc main_arg2) = arg m c main_arg2 :=
  (by keeps_through hostOps1 : StableHlo.after hostOps1 (W1 m ρ c) (Proc.devRef .tc main_arg2) = W1 m ρ c (Proc.devRef .tc main_arg2)).trans
    (W1_keep m ρ c main_arg2 (by decide))
theorem W2_arg3 (c : Dev nD) : W2 m ρ c (Proc.devRef .tc main_arg3) = arg m c main_arg3 :=
  (by keeps_through hostOps1 : StableHlo.after hostOps1 (W1 m ρ c) (Proc.devRef .tc main_arg3) = W1 m ρ c (Proc.devRef .tc main_arg3)).trans
    (W1_keep m ρ c main_arg3 (by decide))
theorem W2_arg5 (c : Dev nD) : W2 m ρ c (Proc.devRef .tc main_arg5) = arg m c main_arg5 :=
  (by keeps_through hostOps1 : StableHlo.after hostOps1 (W1 m ρ c) (Proc.devRef .tc main_arg5) = W1 m ρ c (Proc.devRef .tc main_arg5)).trans
    (W1_keep m ρ c main_arg5 (by decide))
theorem W2_arg6 (c : Dev nD) : W2 m ρ c (Proc.devRef .tc main_arg6) = arg m c main_arg6 :=
  (by keeps_through hostOps1 : StableHlo.after hostOps1 (W1 m ρ c) (Proc.devRef .tc main_arg6) = W1 m ρ c (Proc.devRef .tc main_arg6)).trans
    (W1_keep m ρ c main_arg6 (by decide))
theorem W2_arg7 (c : Dev nD) : W2 m ρ c (Proc.devRef .tc main_arg7) = arg m c main_arg7 :=
  (by keeps_through hostOps1 : StableHlo.after hostOps1 (W1 m ρ c) (Proc.devRef .tc main_arg7) = W1 m ρ c (Proc.devRef .tc main_arg7)).trans
    (W1_keep m ρ c main_arg7 (by decide))
theorem W2_arg8 (c : Dev nD) : W2 m ρ c (Proc.devRef .tc main_arg8) = arg m c main_arg8 :=
  (by keeps_through hostOps1 : StableHlo.after hostOps1 (W1 m ρ c) (Proc.devRef .tc main_arg8) = W1 m ρ c (Proc.devRef .tc main_arg8)).trans
    (W1_keep m ρ c main_arg8 (by decide))
theorem W2_arg11 (c : Dev nD) : W2 m ρ c (Proc.devRef .tc main_arg11) = arg m c main_arg11 :=
  (by keeps_through hostOps1 : StableHlo.after hostOps1 (W1 m ρ c) (Proc.devRef .tc main_arg11) = W1 m ρ c (Proc.devRef .tc main_arg11)).trans
    (W1_keep m ρ c main_arg11 (by decide))

/-! ## After the second region: the directed edges' samples -/

/-- The incoming samples are the reference's. -/
theorem edge_in_eq (c : Dev nD) :
    W3 m ρ c (Proc.devRef .tc main_v36_0) = Cert.ReferenceIdeal.Read.val_main_v54 (F := Ideal) (arg m c main_arg0) (arg m c main_arg1) (arg m c main_arg2) (arg m c main_arg3) (arg m c main_arg4) (arg m c main_arg6) (arg m c main_arg9) (arg m c main_arg10) := by
  refine (W3_arr m ρ c 6).trans ((Cert.KernelIdeal.EdgeValue.final_in (V2 m ρ) c).trans ?_)
  rw [hsrc_eq m ρ c, hdst_eq m ρ c, show V2 m ρ c main_arg2 = arg m c main_arg2 from W2_arg2 m ρ c,
    show V2 m ρ c main_arg3 = arg m c main_arg3 from W2_arg3 m ρ c,
    show V2 m ρ c main_arg6 = arg m c main_arg6 from W2_arg6 m ρ c]
  exact (Cert.ReferenceIdeal.EdgeRef.edge_in_ref _ _ _ _ _ _ _ _).symm

/-- The outgoing samples are the reference's. -/
theorem edge_out_eq (c : Dev nD) :
    W3 m ρ c (Proc.devRef .tc main_v36_1) = Cert.ReferenceIdeal.Read.val_main_v57 (F := Ideal) (arg m c main_arg0) (arg m c main_arg1) (arg m c main_arg2) (arg m c main_arg3) (arg m c main_arg4) (arg m c main_arg7) (arg m c main_arg9) (arg m c main_arg10) := by
  refine (W3_arr m ρ c 7).trans ((Cert.KernelIdeal.EdgeValue.final_out (V2 m ρ) c).trans ?_)
  rw [hsrc_eq m ρ c, hdst_eq m ρ c, show V2 m ρ c main_arg2 = arg m c main_arg2 from W2_arg2 m ρ c,
    show V2 m ρ c main_arg3 = arg m c main_arg3 from W2_arg3 m ρ c,
    show V2 m ρ c main_arg7 = arg m c main_arg7 from W2_arg7 m ρ c]
  exact (Cert.ReferenceIdeal.EdgeRef.edge_out_ref _ _ _ _ _ _ _ _).symm

/-- The hidden rows and the arguments the later segments read, across the second region: it writes none of them
    (the two weights are its inputs, which a region leaves as it found them). -/
theorem W3_hidden (c : Dev nD) :
    W3 m ρ c (Proc.devRef .tc main_v17) = Cert.ReferenceIdeal.Read.val_main_v17 (F := Ideal) (arg m c main_arg0) (arg m c main_arg1) (arg m c main_arg4) (arg m c main_arg9) :=
  (W3_of_ne m ρ c main_v17 (by decide)).trans (hidden_eq m ρ c)
theorem W3_arg5 (c : Dev nD) : W3 m ρ c (Proc.devRef .tc main_arg5) = arg m c main_arg5 :=
  (W3_of_ne m ρ c main_arg5 (by decide)).trans (W2_arg5 m ρ c)
theorem W3_arg8 (c : Dev nD) : W3 m ρ c (Proc.devRef .tc main_arg8) = arg m c main_arg8 :=
  (W3_of_ne m ρ c main_arg8 (by decide)).trans (W2_arg8 m ρ c)
theorem W3_arg11 (c : Dev nD) : W3 m ρ c (Proc.devRef .tc main_arg11) = arg m c main_arg11 :=
  (W3_of_ne m ρ c main_arg11 (by decide)).trans (W2_arg11 m ρ c)
theorem W3_arg2 (c : Dev nD) : W3 m ρ c (Proc.devRef .tc main_arg2) = arg m c main_arg2 :=
  (W3_arr m ρ c 2).trans (((dat1 (V2 m ρ) c).arrAt_in 2 rfl _).trans ((A_eq1 (V2 m ρ) c 2).trans (W2_arg2 m ρ c)))
theorem W3_arg3 (c : Dev nD) : W3 m ρ c (Proc.devRef .tc main_arg3) = arg m c main_arg3 :=
  (W3_arr m ρ c 3).trans (((dat1 (V2 m ρ) c).arrAt_in 3 rfl _).trans ((A_eq1 (V2 m ρ) c 3).trans (W2_arg3 m ρ c)))

/-! ## After the second host stretch: the bidirectional edges' two gathers and the edge values as a column -/

/-- The first ends' hidden rows of the bidirectional edges are the reference's. -/
theorem b0_eq (c : Dev nD) :
    V4 m ρ c main_v45 = Cert.ReferenceIdeal.Read.val_main_v66 (F := Ideal) (arg m c main_arg0) (arg m c main_arg1) (arg m c main_arg4) (arg m c main_arg9) (arg m c main_arg11) := by
  show StableHlo.after hostOps2 (W3 m ρ c) (Proc.devRef .tc main_v45) = _
  after_results_simp
  rw [W3_hidden m ρ c, W3_arg11 m ρ c]
  rfl

/-- The second ends' hidden rows of the bidirectional edges are the reference's. -/
theorem b1_eq (c : Dev nD) :
    V4 m ρ c main_v54 = Cert.ReferenceIdeal.Read.val_main_v75 (F := Ideal) (arg m c main_arg0) (arg m c main_arg1) (arg m c main_arg4) (arg m c main_arg9) (arg m c main_arg11) := by
  show StableHlo.after hostOps2 (W3 m ρ c) (Proc.devRef .tc main_v54) = _
  after_results_simp
  rw [W3_hidden m ρ c, W3_arg11 m ρ c]
  rfl

/-- The edge values as a one-column array are the reference's. -/
theorem bv_eq (c : Dev nD) :
    V4 m ρ c main_v55 = Cert.ReferenceIdeal.Read.val_main_v82 (F := Ideal) (arg m c main_arg5) := by
  show StableHlo.after hostOps2 (W3 m ρ c) (Proc.devRef .tc main_v55) = _
  after_results_simp
  rw [W3_arg5 m ρ c]
  rfl

/-- What the second stretch does not write. -/
theorem W4_arg2 (c : Dev nD) : W4 m ρ c (Proc.devRef .tc main_arg2) = arg m c main_arg2 :=
  (by keeps_through hostOps2 : StableHlo.after hostOps2 (W3 m ρ c) (Proc.devRef .tc main_arg2) = W3 m ρ c (Proc.devRef .tc main_arg2)).trans
    (W3_arg2 m ρ c)
theorem W4_arg3 (c : Dev nD) : W4 m ρ c (Proc.devRef .tc main_arg3) = arg m c main_arg3 :=
  (by keeps_through hostOps2 : StableHlo.after hostOps2 (W3 m ρ c) (Proc.devRef .tc main_arg3) = W3 m ρ c (Proc.devRef .tc main_arg3)).trans
    (W3_arg3 m ρ c)
theorem W4_arg8 (c : Dev nD) : W4 m ρ c (Proc.devRef .tc main_arg8) = arg m c main_arg8 :=
  (by keeps_through hostOps2 : StableHlo.after hostOps2 (W3 m ρ c) (Proc.devRef .tc main_arg8) = W3 m ρ c (Proc.devRef .tc main_arg8)).trans
    (W3_arg8 m ρ c)
theorem W4_arg11 (c : Dev nD) : W4 m ρ c (Proc.devRef .tc main_arg11) = arg m c main_arg11 :=
  (by keeps_through hostOps2 : StableHlo.after hostOps2 (W3 m ρ c) (Proc.devRef .tc main_arg11) = W3 m ρ c (Proc.devRef .tc main_arg11)).trans
    (W3_arg11 m ρ c)
theorem W4_edge_in (c : Dev nD) : W4 m ρ c (Proc.devRef .tc main_v36_0) = W3 m ρ c (Proc.devRef .tc main_v36_0) := by
  show StableHlo.after hostOps2 (W3 m ρ c) (Proc.devRef .tc main_v36_0) = _
  keeps_through hostOps2
theorem W4_edge_out (c : Dev nD) : W4 m ρ c (Proc.devRef .tc main_v36_1) = W3 m ρ c (Proc.devRef .tc main_v36_1) := by
  show StableHlo.after hostOps2 (W3 m ρ c) (Proc.devRef .tc main_v36_1) = _
  keeps_through hostOps2

/-! ## After the third region: the weighted mean and variance terms -/

/-- The weighted mean terms are the reference's. -/
theorem wmiu_eq (c : Dev nD) :
    W5 m ρ c (Proc.devRef .tc main_v56_0) = Cert.ReferenceIdeal.Read.val_main_v84 (F := Ideal) (arg m c main_arg0) (arg m c main_arg1) (arg m c main_arg2) (arg m c main_arg4) (arg m c main_arg5) (arg m c main_arg9) (arg m c main_arg11) := by
  refine (W5_arr m ρ c 5).trans ((Cert.KernelIdeal.NodePrepValue.final_miu (V4 m ρ) c).trans ?_)
  rw [b0_eq m ρ c, b1_eq m ρ c, bv_eq m ρ c, show V4 m ρ c main_arg2 = arg m c main_arg2 from W4_arg2 m ρ c]
  exact (Cert.ReferenceIdeal.NodePrepRef.wmiu_ref _ _ _ _ _ _ _).symm

/-- The weighted variance terms are the reference's. -/
theorem wvar_eq (c : Dev nD) :
    W5 m ρ c (Proc.devRef .tc main_v56_1) = Cert.ReferenceIdeal.Read.val_main_v94 (F := Ideal) (arg m c main_arg0) (arg m c main_arg1) (arg m c main_arg3) (arg m c main_arg4) (arg m c main_arg5) (arg m c main_arg9) (arg m c main_arg11) := by
  refine (W5_arr m ρ c 6).trans ((Cert.KernelIdeal.NodePrepValue.final_var (V4 m ρ) c).trans ?_)
  rw [b0_eq m ρ c, b1_eq m ρ c, bv_eq m ρ c, show V4 m ρ c main_arg3 = arg m c main_arg3 from W4_arg3 m ρ c]
  exact (Cert.ReferenceIdeal.NodePrepRef.wvar_ref _ _ _ _ _ _ _).symm

/-- What the third region does not write. -/
theorem W5_arg8 (c : Dev nD) : W5 m ρ c (Proc.devRef .tc main_arg8) = arg m c main_arg8 :=
  (W5_of_ne m ρ c main_arg8 (by decide)).trans (W4_arg8 m ρ c)
theorem W5_arg11 (c : Dev nD) : W5 m ρ c (Proc.devRef .tc main_arg11) = arg m c main_arg11 :=
  (W5_of_ne m ρ c main_arg11 (by decide)).trans (W4_arg11 m ρ c)

/-! ## After the third host stretch: the two aggregations into nodes -/

/-- The aggregated means are the reference's. -/
theorem node_miu_eq (c : Dev nD) :
    V6 m ρ c main_v61 = Cert.ReferenceIdeal.Read.val_main_v89 (F := Ideal) (arg m c main_arg0) (arg m c main_arg1) (arg m c main_arg2) (arg m c main_arg4) (arg m c main_arg5) (arg m c main_arg9) (arg m c main_arg11) := by
  show StableHlo.after hostOps3 (W5 m ρ c) (Proc.devRef .tc main_v61) = _
  after_results_simp
  rw [wmiu_eq m ρ c, W5_arg11 m ρ c]
  rfl

/-- The aggregated variances are the reference's. -/
theorem node_var_eq (c : Dev nD) :
    V6 m ρ c main_v66 = Cert.ReferenceIdeal.Read.val_main_v99 (F := Ideal) (arg m c main_arg0) (arg m c main_arg1) (arg m c main_arg3) (arg m c main_arg4) (arg m c main_arg5) (arg m c main_arg9) (arg m c main_arg11) := by
  show StableHlo.after hostOps3 (W5 m ρ c) (Proc.devRef .tc main_v66) = _
  after_results_simp
  rw [wvar_eq m ρ c, W5_arg11 m ρ c]
  rfl

/-- The node noise is as launched when the last region reads it. -/
theorem W6_arg8 (c : Dev nD) : W6 m ρ c (Proc.devRef .tc main_arg8) = arg m c main_arg8 :=
  (by keeps_through hostOps3 : StableHlo.after hostOps3 (W5 m ρ c) (Proc.devRef .tc main_arg8) = W5 m ρ c (Proc.devRef .tc main_arg8)).trans
    (W5_arg8 m ρ c)

/-! ## The three results -/

/-- The node samples: the last region's output is the reference's last stage. -/
theorem node_embed_eq (c : Dev nD) :
    W7 m ρ c (Proc.devRef .tc main_v67) = Cert.ReferenceIdeal.Read.val_main_v105 (F := Ideal) (arg m c main_arg0) (arg m c main_arg1) (arg m c main_arg2) (arg m c main_arg3) (arg m c main_arg4) (arg m c main_arg5) (arg m c main_arg8) (arg m c main_arg9) (arg m c main_arg11) := by
  refine (W7_arr m ρ c 3).trans ((Cert.KernelIdeal.CombineValue.final (V6 m ρ) c).trans ?_)
  rw [node_miu_eq m ρ c, node_var_eq m ρ c, show V6 m ρ c main_arg8 = arg m c main_arg8 from W6_arg8 m ρ c]
  exact (Cert.ReferenceIdeal.CombineRef.comb_ref _ _ _ _ _ _ _ _ _).symm

/-- The incoming samples reach the end unchanged: no later segment writes them. -/
theorem edge_in_final (c : Dev nD) :
    W7 m ρ c (Proc.devRef .tc main_v36_0) = Cert.ReferenceIdeal.Read.val_main_v54 (F := Ideal) (arg m c main_arg0) (arg m c main_arg1) (arg m c main_arg2) (arg m c main_arg3) (arg m c main_arg4) (arg m c main_arg6) (arg m c main_arg9) (arg m c main_arg10) :=
  (W7_of_ne m ρ c main_v36_0 (by decide)).trans
    ((by keeps_through hostOps3 : StableHlo.after hostOps3 (W5 m ρ c) (Proc.devRef .tc main_v36_0) = W5 m ρ c (Proc.devRef .tc main_v36_0)).trans
      ((W5_of_ne m ρ c main_v36_0 (by decide)).trans ((W4_edge_in m ρ c).trans (edge_in_eq m ρ c))))

/-- The outgoing samples reach the end unchanged. -/
theorem edge_out_final (c : Dev nD) :
    W7 m ρ c (Proc.devRef .tc main_v36_1) = Cert.ReferenceIdeal.Read.val_main_v57 (F := Ideal) (arg m c main_arg0) (arg m c main_arg1) (arg m c main_arg2) (arg m c main_arg3) (arg m c main_arg4) (arg m c main_arg7) (arg m c main_arg9) (arg m c main_arg10) :=
  (W7_of_ne m ρ c main_v36_1 (by decide)).trans
    ((by keeps_through hostOps3 : StableHlo.after hostOps3 (W5 m ρ c) (Proc.devRef .tc main_v36_1) = W5 m ρ c (Proc.devRef .tc main_v36_1)).trans
      ((W5_of_ne m ρ c main_v36_1 (by decide)).trans ((W4_edge_out m ρ c).trans (edge_out_eq m ρ c))))

end Cert.KernelIdeal.Fold

end
-- ==== Proof.lean ====
/-
  The sparse graph layer: a dense projection `X · W`, an aggregation of weighted projected rows into hidden rows
  (gather, scale, scatter-add), then for the directed edges the samples `noise · exp (logstd) + miu` of the two
  projections of each edge's pair of hidden rows, and for the nodes the sample `noise · √var + miu` of the edge-weighted
  means and variances aggregated over the bidirectional edges.

  The kernel program computes the dense projection, the edge samples, the weighted terms and the node samples in four
  tiled regions, 2000 rows to a block, and leaves the gathers and scatter-adds to the host; the reference is one host
  program. On the extended reals the two agree with nothing assumed of the inputs:
  * a tiled product is the product (the blocks tile the rows; a change of float format is the identity);
  * the kernel's product of a concatenated pair `[h_a | h_b]` with a 256-row weight is the reference's sum of two
    products with the weight's top and bottom halves — a sum of 256 terms split in two;
  * the host operations between the regions are the reference's own, applied to equal arrays;
  * the kernel's `√var` is the reference's `exp (½ · log var)` on `0 ≤ var ≤ ⊤`, and the aggregated variance, a sum
    onto zero of squares times exponentials, is never negative.
  The kernel's run with its three results named is the frame's launch called again with the results kept; what the
  reference computes is its generated run, read one operation at a time by the generated reading lemmas.
-/
import proofs.«169134_j56556129354623_1_alg».proof.Defs
import proofs.«169134_j56556129354623_1_alg».proof.Proof.Gen.Kernel
import proofs.«169134_j56556129354623_1_alg».proof.Proof.Gen.Kernel.Skeleton
import proofs.«169134_j56556129354623_1_alg».proof.Proof.Gen.Kernel.Launch
import proofs.«169134_j56556129354623_1_alg».proof.Proof.Gen.Kernel.Points
import proofs.«169134_j56556129354623_1_alg».proof.Proof.Gen.Kernel.Frame
import proofs.«169134_j56556129354623_1_alg».proof.Proof.Gen.KernelIdeal
import proofs.«169134_j56556129354623_1_alg».proof.Proof.Gen.KernelIdeal.Skeleton
import proofs.«169134_j56556129354623_1_alg».proof.Proof.Gen.KernelIdeal.Launch
import proofs.«169134_j56556129354623_1_alg».proof.Proof.Gen.KernelIdeal.Points
import proofs.«169134_j56556129354623_1_alg».proof.Proof.Gen.KernelIdeal.Frame
import proofs.«169134_j56556129354623_1_alg».proof.Proof.Gen.ReferenceIdeal
import proofs.«169134_j56556129354623_1_alg».proof.Proof.Gen.Pre_finite_inputs
import proofs.«169134_j56556129354623_1_alg».proof.Proof.Gen.ReferenceIdeal.Run
import proofs.«169134_j56556129354623_1_alg».proof.Proof.Gen.ReferenceIdeal.Read
import proofs.«169134_j56556129354623_1_alg».proof.Proof.KernelRun
import proofs.«169134_j56556129354623_1_alg».proof.Proof.HostFold
import Idealize.ShloMosaic.Adequacy
import Idealize.ShloMosaic.Init

noncomputable section

namespace Cert.Proof

open Idealize.ShloMosaic Idealize.SL.Sem

/-- The word-level kernel program runs, and leaves its arguments as launched. -/
theorem frame_kernel : Cert.frame_Kernel := fun m ρ _ => Cert.Kernel.Gen.frame m ρ

/-- The idealized kernel program runs, and leaves its arguments as launched. -/
theorem frame_kernel_ideal : Cert.frame_KernelIdeal := fun m ρ _ => Cert.KernelIdeal.Gen.frame m ρ

/-- The reference runs, and leaves its arguments as launched: its run with the results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation of the kernel: there is nothing to preserve. -/
theorem preserves : Cert.preserves_Kernel_KernelIdeal := trivial

/-- From memories that agree on the twelve arguments both programs end with the node samples and the two edge sample
    arrays at the reference's last stages of those arguments: the kernel's by the fold through its seven segments,
    the reference's by its run. -/
theorem algebraic : Cert.algebraic_KernelIdeal_ReferenceIdeal := by
  intro m ρ m' ρ' _ hagree
  refine ⟨fun c => Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)),
    fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.node_embed_eq m ρ c),
        (h c).2.1.trans (Cert.KernelIdeal.Fold.edge_in_final m ρ c),
        (h c).2.2.1.trans (Cert.KernelIdeal.Fold.edge_out_final m ρ c), (h c).2.2.2⟩)
      (Cert.KernelIdeal.ResultRun.run_results (F := Ideal) m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v105_eq]
      obtain ⟨e0, e1, e2, e3, e4, e5, e6, e7, e8, e9, e10, e11⟩ := hagree c
      rw [e0, e1, e2, e3, e4, e5, e8, e9, e11]
    · rw [Cert.ReferenceIdeal.Read.val_main_v54_eq]
      obtain ⟨e0, e1, e2, e3, e4, e5, e6, e7, e8, e9, e10, e11⟩ := hagree c
      rw [e0, e1, e2, e3, e4, e6, e9, e10]
    · rw [Cert.ReferenceIdeal.Read.val_main_v57_eq]
      obtain ⟨e0, e1, e2, e3, e4, e5, e6, e7, e8, e9, e10, e11⟩ := hagree c
      rw [e0, e1, e2, e3, e4, e7, e9, e10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
